-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S2x800000 : Shape := ⟨2, ![2, 800000]⟩
abbrev S50000 : Shape := ⟨1, ![50000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x256 .f32) (main_arg1 : FVec F S800000 .f32) (main_arg2 : FVec F S256x256 .f32) (main_arg3 : FVec F S256 .f32) (main_arg4 : FVec F S256x256 .f32) (main_arg5 : FVec F S256 .f32) (main_arg6 : FVec F S256 .f32) (main_arg7 : IVec S2x800000 32) (main_arg8 : IVec S50000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S2x800000 : Shape := ⟨2, ![2, 800000]⟩
abbrev S50000 : Shape := ⟨1, ![50000]⟩
abbrev S1x800000 : Shape := ⟨2, ![1, 800000]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S2000x256 : Shape := ⟨2, ![2000, 256]⟩
abbrev S5000x256 : Shape := ⟨2, ![5000, 256]⟩

abbrev nBuf : Space → Nat
  | .hbm => 46
  | .vmem => 21
  | .smem => 0
  | _ => 0

abbrev bufTy : (tb : Table) → Fin (tcTables nBuf tb) → BufTy
  | .hbm, ⟨0, _⟩ => ⟨S50000x256, .f32⟩
  | .hbm, ⟨1, _⟩ => ⟨S800000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S2x800000, .i32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S800000x1, .f32⟩
  | .hbm, ⟨23, _⟩ => ⟨S800000x256, .f32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S256x256, .f32⟩
  | .hbm, ⟨30, _⟩ => ⟨S256x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S50000x256, .f32⟩
  | .hbm, ⟨35, _⟩ => ⟨S1x256, .f32⟩
  | .hbm, ⟨36, _⟩ => ⟨S1x256, .f32⟩
  | .hbm, ⟨37, _⟩ => ⟨S_, .f32⟩
  | .hbm, ⟨38, _⟩ => ⟨S1x256, .f32⟩
  | .hbm, ⟨39, _⟩ => ⟨S1x256, .f32⟩
  | .hbm, ⟨40, _⟩ => ⟨S_, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S2000x256, .f32⟩
  | .local _ .vmem, ⟨8, _⟩ => ⟨S2000x256, .f32⟩
  | .local _ .vmem, ⟨9, _⟩ => ⟨S1x256, .f32⟩
  | .local _ .vmem, ⟨10, _⟩ => ⟨S1x256, .f32⟩
  | .local _ .vmem, ⟨11, _⟩ => ⟨S5000x256, .f32⟩
  | .local _ .vmem, ⟨12, _⟩ => ⟨S5000x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  transposes_S256x256_S256x256_1_0 : S256x256.Transposes [1, 0] S256x256
  shapeCasts_S256_S1x256 : S256.ShapeCasts S1x256
  inb_S1x256_S1x256_0_0 : ∀ a, (![0, 0] : Fin 2 → Nat) a + S1x256.size a ≤ S1x256.size a
  h_S1x256 : 0 < S1x256.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S1x256_S1x256 : S1x256.ShapeCasts S1x256
  broadcasts_S1x256_S2000x256 : S1x256.Broadcasts S2000x256
  reduces_S2000x256_S256 : S2000x256.Reduces [0] S256
  bcast_S_S1x256 : S_.BroadcastsInDim S1x256 (![] : Fin 0 → Fin S1x256.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  broadcasts_S1x256_S5000x256 : S1x256.Broadcasts S5000x256
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x256.size a ≤ S50000x256.size a
  hwx1_6 : ∀ i : grid1.Coords, EltTy.bits .f32 = 32 ∨ (Rect.block (s := S50000x256) S5000x256.size (cc1_transform_6 i) (hinb1_6 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v16) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_1) S1x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22_2) S1x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22_0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S5000x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S2x800000 : Shape := ⟨2, ![2, 800000]⟩
abbrev S50000 : Shape := ⟨1, ![50000]⟩
abbrev S1x800000 : Shape := ⟨2, ![1, 800000]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩

abbrev nBuf : Space → Nat
  | .hbm => 88
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S2x800000, .i32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S800000x1, .f32⟩
  | .hbm, ⟨23, _⟩ => ⟨S800000x256, .f32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S256x256, .f32⟩
  | .hbm, ⟨30, _⟩ => ⟨S50000x256, .f32⟩
  | .hbm, ⟨31, _⟩ => ⟨S1x256, .f32⟩
  | .hbm, ⟨32, _⟩ => ⟨S50000x256, .f32⟩
  | .hbm, ⟨33, _⟩ => ⟨S50000x256, .f32⟩
  | .hbm, ⟨34, _⟩ => ⟨S256x256, .f32⟩
  | .hbm, ⟨35, _⟩ => ⟨S50000x256, .f32⟩
  | .hbm, ⟨36, _⟩ => ⟨S50000x256, .f32⟩
  | .hbm, ⟨37, _⟩ => ⟨S_, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S_, .i32⟩
  | .hbm, ⟨43, _⟩ => ⟨S_, .f32⟩
  | .hbm, ⟨44, _⟩ => ⟨S256, .f32⟩
  | .hbm, ⟨45, _⟩ => ⟨S1x256, .f32⟩
  | .hbm, ⟨46, _⟩ => ⟨S_, .f32⟩
  | .hbm, ⟨47, _⟩ => ⟨S1x256, .f32⟩
  | .hbm, ⟨48, _⟩ => ⟨S1x256, .f32⟩
  | .hbm, ⟨49, _⟩ => ⟨S50000x256, .f32⟩
  | .hbm, ⟨50, _⟩ => ⟨S50000x256, .f32⟩
  | .hbm, ⟨51, _⟩ => ⟨S50000x256, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S256, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S256, .f32⟩
  | .hbm, ⟨64, _⟩ => ⟨S256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S256, .f32⟩
  | .hbm, ⟨70, _⟩ => ⟨S256, .f32⟩
  | .hbm, ⟨71, _⟩ => ⟨S256, .f32⟩
  | .hbm, ⟨72, _⟩ => ⟨S1x256, .f32⟩
  | .hbm, ⟨73, _⟩ => ⟨S50000x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S1x256, .f32⟩
  | .hbm, ⟨79, _⟩ => ⟨S50000x256, .f32⟩
  | .hbm, ⟨80, _⟩ => ⟨S50000x256, .f32⟩
  | .hbm, ⟨81, _⟩ => ⟨S_, .f32⟩
  | .hbm, ⟨82, _⟩ => ⟨S50000x256, .f32⟩
  | .hbm, ⟨83, _⟩ => ⟨S50000x256, .f32⟩
  | .hbm, ⟨84, _⟩ => ⟨S50000x256, .f32⟩
  | .hbm, ⟨85, _⟩ => ⟨S_, .f32⟩
  | .hbm, ⟨86, _⟩ => ⟨S50000x256, .f32⟩
  | .hbm, ⟨87, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_c_3 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_call1_cst : Ref sig .tc := ⟨.hbm, 81, rfl⟩
abbrev main_call1_v0 : Ref sig .tc := ⟨.hbm, 82, rfl⟩
abbrev main_v44 : Ref sig .tc := ⟨.hbm, 83, rfl⟩
abbrev main_v45 : Ref sig .tc := ⟨.hbm, 84, rfl⟩
abbrev main_call2_cst : Ref sig .tc := ⟨.hbm, 85, rfl⟩
abbrev main_call2_v0 : Ref sig .tc := ⟨.hbm, 86, rfl⟩
abbrev main_v46 : Ref sig .tc := ⟨.hbm, 87, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/-
  The mathematics of the graph block, over plain index types: a node's pre-activation is its aggregated
  neighbour row times one weight matrix, plus its own row times another, plus a bias; each channel is then
  normalised by its mean and variance over all nodes, scaled, shifted, clipped at zero, added to the node's
  own feature and clipped again. The kernel forms the variance as the mean of squares minus the squared mean
  and its sums block by block; the reference forms it as the mean of squared deviations. On real entries the
  two agree.
-/
import Idealize.ShloMosaic.PureOps.Ideal
import Idealize.ShloMosaic.PureOps.Ideal.Laws
import Idealize.ShloMosaic.Lib.ValueIdx

noncomputable section

namespace Cert.GBlock

open Idealize.ShloMosaic

/-- The node count as both programs write it: the f32 literal 50000. -/
def c50000 : EReal := Ideal.ofBits .f32 0x47435000#32
/-- The stabiliser added to the variance: the f32 nearest 1e-5, the same word in both programs. -/
def eps : EReal := Ideal.ofBits .f32 0x3727C5AC#32

/-- An extended real that is a real number. -/
def IsReal (x : EReal) : Prop := ∃ r : ℝ, x = (r : EReal)

/-- The literal's sign bit is clear, its exponent field is 142 and its fraction field 4411392:
    (2^23 + 4411392) · 2^(142 - 127 - 23) = 12800000 / 256 = 50000. -/
theorem c50000_eq : c50000 = ((50000 : ℝ) : EReal) := by
  simp [c50000, Ideal.ofBits, Ideal.ieee, -EReal.coe_mul]; norm_num

/-- A sum of two reals is real. -/
theorem IsReal.add {x y : EReal} (hx : IsReal x) (hy : IsReal y) : IsReal (x + y) := by
  obtain ⟨r, rfl⟩ := hx; obtain ⟨s, rfl⟩ := hy
  exact ⟨r + s, (EReal.coe_add r s).symm⟩

/-- A product of two reals is real. -/
theorem IsReal.mul {x y : EReal} (hx : IsReal x) (hy : IsReal y) : IsReal (x * y) := by
  obtain ⟨r, rfl⟩ := hx; obtain ⟨s, rfl⟩ := hy
  exact ⟨r * s, (EReal.coe_mul r s).symm⟩

/-- A finite sum of reals is real, by induction on the index set. -/
theorem IsReal.sum {ι : Type} (s : Finset ι) (f : ι → EReal) (h : ∀ i ∈ s, IsReal (f i)) :
    IsReal (∑ i ∈ s, f i) := by
  induction s using Finset.cons_induction with
  | empty => exact ⟨0, by rw [Finset.sum_empty, EReal.coe_zero]⟩
  | cons a s ha ih =>
    rw [Finset.sum_cons]
    exact IsReal.add (h a (Finset.mem_cons_self a s)) (ih (fun i hi => h i (Finset.mem_cons.2 (Or.inr hi))))

/-- The embedding of the reals commutes with finite sums, by induction on the index set. -/
theorem ereal_coe_sum {ι : Type} (s : Finset ι) (f : ι → ℝ) :
    ((∑ i ∈ s, f i : ℝ) : EReal) = ∑ i ∈ s, (f i : EReal) := by
  induction s using Finset.cons_induction with
  | empty => rw [Finset.sum_empty, Finset.sum_empty, EReal.coe_zero]
  | cons a s ha ih => rw [Finset.sum_cons, Finset.sum_cons, EReal.coe_add, ih]

/-- Over the reals, with n the number of indices and μ = (∑ r) / n: expanding (r - μ)² = r² - 2μr + μ² and
    summing gives ∑ (r - μ)² = ∑ r² - 2μ ∑ r + n μ² = ∑ r² - n μ², since ∑ r = n μ; divide by n. -/
theorem real_var_identity {ι : Type} [Fintype ι] (r : ι → ℝ) (n : ℝ) (hn : (Fintype.card ι : ℝ) = n) (hn0 : n ≠ 0) :
    (∑ p, r p * r p) * (1 / n) - (∑ p, r p) * (1 / n) * ((∑ p, r p) * (1 / n))
      = (∑ p, (r p - (∑ p, r p) * (1 / n)) * (r p - (∑ p, r p) * (1 / n))) * (1 / n) := by
  generalize hμ : (∑ p, r p) * (1 / n) = μ
  have h1 : ∑ p, r p = n * μ := by rw [← hμ]; field_simp
  have h2 : ∑ p, (r p - μ) * (r p - μ) = ∑ p, r p * r p - 2 * μ * ∑ p, r p + n * (μ * μ) := by
    have h3 : ∀ p, (r p - μ) * (r p - μ) = r p * r p - 2 * μ * r p + μ * μ := fun p => by ring
    simp only [h3]
    rw [Finset.sum_add_distrib, Finset.sum_sub_distrib, ← Finset.mul_sum, Finset.sum_const, Finset.card_univ,
      nsmul_eq_mul, hn]
  rw [h2, h1]
  field_simp
  ring

/-- Dividing a sum of reals by the node count is multiplying the real sum by 1/50000. -/
theorem div_sum_coe (f : Fin 50000 → ℝ) :
    Ideal.div (∑ p, (f p : EReal)) c50000 = (((∑ p, f p) * (1 / 50000) : ℝ) : EReal) := by
  rw [c50000_eq, Ideal.div_coe (by norm_num), ← ereal_coe_sum, ← EReal.coe_mul]

section Pre
variable (A X : Fin 50000 → Fin 256 → EReal) (Wr Wo : Fin 256 → Fin 256 → EReal) (b : Fin 256 → EReal)

/-- The pre-activation in the reference's order of additions. `Wr q k` is entry (q, k) of W_rel as given
    (both programs contract over its second axis). -/
def pre (p : Fin 50000) (q : Fin 256) : EReal :=
  (∑ k : Fin 256, A p k * Wr q k + b q) + ∑ k : Fin 256, X p k * Wo q k

/-- The pre-activation in the kernel's order of additions. -/
def preK (p : Fin 50000) (q : Fin 256) : EReal :=
  (∑ k : Fin 256, A p k * Wr q k + ∑ k : Fin 256, X p k * Wo q k) + b q

/-- Addition of extended reals is commutative and associative, so the two orders agree. -/
theorem preK_eq_pre : preK A X Wr Wo b = pre A X Wr Wo b := by
  funext p q
  exact add_right_comm _ _ _

/-- Sums and products of reals are real. -/
theorem pre_real (hA : ∀ p k, IsReal (A p k)) (hX : ∀ p k, IsReal (X p k)) (hWr : ∀ q k, IsReal (Wr q k))
    (hWo : ∀ q k, IsReal (Wo q k)) (hb : ∀ q, IsReal (b q)) : ∀ p q, IsReal (pre A X Wr Wo b p q) := by
  intro p q
  exact IsReal.add (IsReal.add (IsReal.sum _ _ (fun k _ => IsReal.mul (hA p k) (hWr q k))) (hb q))
    (IsReal.sum _ _ (fun k _ => IsReal.mul (hX p k) (hWo q k)))
end Pre

section Stats
variable (o : Fin 50000 → Fin 256 → EReal)

/-- A channel's mean over the nodes. -/
def mean (q : Fin 256) : EReal := Ideal.div (∑ p : Fin 50000, o p q) c50000
/-- A channel's variance as the kernel forms it: mean of squares minus squared mean. -/
def varK (q : Fin 256) : EReal := Ideal.div (∑ p : Fin 50000, o p q * o p q) c50000 - mean o q * mean o q
/-- A channel's variance as the reference forms it: mean of squared deviations. -/
def varR (q : Fin 256) : EReal := Ideal.div (∑ p : Fin 50000, (o p q - mean o q) * (o p q - mean o q)) c50000

/-- On real entries, ∑ (o - μ)² / n = ∑ o² / n - μ² with μ = ∑ o / n. -/
theorem varK_eq_varR (ho : ∀ p q, IsReal (o p q)) : varK o = varR o := by
  choose r hr using ho
  obtain rfl : o = fun p q => ((r p q : ℝ) : EReal) := funext fun p => funext fun q => hr p q
  funext q
  have hmean : mean (fun p q => ((r p q : ℝ) : EReal)) q = (((∑ p, r p q) * (1 / 50000) : ℝ) : EReal) :=
    div_sum_coe (fun p => r p q)
  have hsq : ∀ p, ((r p q : ℝ) : EReal) * ((r p q : ℝ) : EReal) = ((r p q * r p q : ℝ) : EReal) :=
    fun p => (EReal.coe_mul _ _).symm
  have hdev : ∀ p, (((r p q : ℝ) : EReal) - (((∑ p, r p q) * (1 / 50000) : ℝ) : EReal))
        * (((r p q : ℝ) : EReal) - (((∑ p, r p q) * (1 / 50000) : ℝ) : EReal))
      = (((r p q - (∑ p, r p q) * (1 / 50000)) * (r p q - (∑ p, r p q) * (1 / 50000)) : ℝ) : EReal) :=
    fun p => by rw [← EReal.coe_sub, ← EReal.coe_mul]
  unfold varK varR
  rw [hmean]
  simp only [hsq, hdev]
  rw [div_sum_coe, div_sum_coe, ← EReal.coe_mul, ← EReal.coe_sub]
  exact congrArg _ (real_var_identity (fun p => r p q) 50000 (by rw [Fintype.card_fin]; norm_num) (by norm_num))
end Stats

/-- Normalise, scale, shift, clip, add the node's own feature, clip. -/
def bn (o : Fin 50000 → Fin 256 → EReal) (mu va g β : Fin 256 → EReal) (X : Fin 50000 → Fin 256 → EReal)
    (p : Fin 50000) (q : Fin 256) : EReal :=
  max (max ((o p q - mu q) * Ideal.rsqrt (va q + eps) * g q + β q) 0 + X p q) 0

section Out
variable (A X : Fin 50000 → Fin 256 → EReal) (Wr Wo : Fin 256 → Fin 256 → EReal) (b g β : Fin 256 → EReal)

/-- What the kernel computes. -/
def outK : Fin 50000 → Fin 256 → EReal :=
  bn (preK A X Wr Wo b) (mean (preK A X Wr Wo b)) (varK (preK A X Wr Wo b)) g β X
/-- What the reference computes. -/
def outR : Fin 50000 → Fin 256 → EReal :=
  bn (pre A X Wr Wo b) (mean (pre A X Wr Wo b)) (varR (pre A X Wr Wo b)) g β X

/-- On real inputs the two are one function. -/
theorem outK_eq_outR (hA : ∀ p k, IsReal (A p k)) (hX : ∀ p k, IsReal (X p k)) (hWr : ∀ q k, IsReal (Wr q k))
    (hWo : ∀ q k, IsReal (Wo q k)) (hb : ∀ q, IsReal (b q)) : outK A X Wr Wo b g β = outR A X Wr Wo b g β := by
  unfold outK outR
  rw [preK_eq_pre, varK_eq_varR _ (pre_real A X Wr Wo b hA hX hWr hWo hb)]
end Out

/-! ## Sums over the nodes taken 2000 at a time -/

/-- The nodes below 2000·(t+1) are those below 2000·t and the t-th block of 2000. -/
theorem sum_lt_succ_block (f : Fin 50000 → EReal) (t : ℕ) (ht : t < 25) :
    ∑ p ∈ Finset.univ.filter (fun p : Fin 50000 => p.val < 2000 * (t + 1)), f p
      = ∑ p ∈ Finset.univ.filter (fun p : Fin 50000 => p.val < 2000 * t), f p
        + ∑ r : Fin 2000, f ⟨2000 * t + r.val, by have := r.isLt; omega⟩ := by
  classical
  have hlow : (Finset.univ.filter (fun p : Fin 50000 => p.val < 2000 * (t + 1))).filter
      (fun p : Fin 50000 => p.val < 2000 * t) = Finset.univ.filter (fun p : Fin 50000 => p.val < 2000 * t) := by
    ext p
    simp only [Finset.mem_filter, Finset.mem_univ, true_and]
    omega
  have hblk : ∑ p ∈ (Finset.univ.filter (fun p : Fin 50000 => p.val < 2000 * (t + 1))).filter
      (fun p : Fin 50000 => ¬ p.val < 2000 * t), f p
      = ∑ r : Fin 2000, f ⟨2000 * t + r.val, by have := r.isLt; omega⟩ := by
    symm
    refine Finset.sum_bij'
      (fun r _ => (⟨2000 * t + r.val, by have := r.isLt; omega⟩ : Fin 50000))
      (fun p hp => (⟨p.val - 2000 * t, by
        simp only [Finset.mem_filter, Finset.mem_univ, true_and] at hp; omega⟩ : Fin 2000))
      ?_ ?_ ?_ ?_ ?_
    · intro r _
      simp only [Finset.mem_filter, Finset.mem_univ, true_and]
      have := r.isLt
      omega
    · intro p _
      exact Finset.mem_univ _
    · intro r _
      apply Fin.ext
      simp only [Nat.add_sub_cancel_left]
    · intro p hp
      simp only [Finset.mem_filter, Finset.mem_univ, true_and] at hp
      apply Fin.ext
      simp only
      omega
    · intro r _
      rfl
  rw [← Finset.sum_filter_add_sum_filter_not
    (Finset.univ.filter (fun p : Fin 50000 => p.val < 2000 * (t + 1))) (fun p : Fin 50000 => p.val < 2000 * t),
    hlow, hblk]

/-- All nodes are below 2000·25. -/
theorem sum_lt_all (f : Fin 50000 → EReal) :
    ∑ p ∈ Finset.univ.filter (fun p : Fin 50000 => p.val < 2000 * 25), f p = ∑ p : Fin 50000, f p := by
  rw [Finset.filter_true_of_mem (fun p _ => by have := p.isLt; omega)]

/-- No node is below 0. -/
theorem sum_lt_zero (f : Fin 50000 → EReal) :
    ∑ p ∈ Finset.univ.filter (fun p : Fin 50000 => p.val < 2000 * 0), f p = 0 := by
  rw [Finset.filter_false_of_mem (fun p _ => by omega), Finset.sum_empty]

/-- A finite sum of reals is real. -/
theorem sum_isReal {ι : Type} (s : Finset ι) (f : ι → EReal) (h : ∀ i ∈ s, IsReal (f i)) : IsReal (∑ i ∈ s, f i) := by
  exact IsReal.sum s f h

theorem mul_isReal {x y : EReal} (hx : IsReal x) (hy : IsReal y) : IsReal (x * y) := by
  exact IsReal.mul hx hy

theorem add_isReal {x y : EReal} (hx : IsReal x) (hy : IsReal y) : IsReal (x + y) := by
  exact IsReal.add hx hy

end Cert.GBlock

end
-- ==== Proof.KTerm.lean ====
/-
  The aggregation both programs perform on the host before anything else: every edge carries its source node's
  feature row scaled by the edge's weight to its destination node, and the rows arriving at one node are added.
  A source index below zero is first shifted by the node count. The whole chain is one function of the node
  features, the edge weights and the edge index table.
-/
import proofs.«174193_j481036337798_1_alg».proof.KernelIdeal

noncomputable section

namespace Cert.KernelIdeal.Term

open Cert.KernelIdeal Idealize.ShloMosaic
open Cert.KernelIdeal.Facts₀ Cert.KernelIdeal.Facts

variable {F : FTy → Type} [FloatOps F] [Cert.KernelIdeal.Facts]

/-- The summed messages: row `i` of the result is `∑` over the edges `e` whose destination is `i` of
    (row `src e` of `x`) · `ew e`, on top of a zero array. -/
def agg (x : (⟨S50000x256, .f32⟩ : BufTy).Contents (Elt F)) (ew : (⟨S800000, .f32⟩ : BufTy).Contents (Elt F))
    (ei : (⟨S2x800000, .i32⟩ : BufTy).Contents (Elt F)) : (⟨S50000x256, .f32⟩ : BufTy).Contents (Elt F) :=
  let v1 : (⟨S800000, .i32⟩ : BufTy).Contents (Elt F) :=
    shapeCast S800000 (extractStridedSlice S1x800000 ![0, 0] ei slices_S2x800000_S1x800000_0_0) shapeCasts_S1x800000_S800000
  let v3 : (⟨S800000, .i32⟩ : BufTy).Contents (Elt F) :=
    shapeCast S800000 (extractStridedSlice S1x800000 ![1, 0] ei slices_S2x800000_S1x800000_1_0) shapeCasts_S1x800000_S800000
  let v4 : (⟨S800000, .i32⟩ : BufTy).Contents (Elt F) := broadcastInDim S800000 ![] bcast_S_S800000 (constantI S_ 32 0#32)
  let v5 : (⟨S800000, .i1⟩ : BufTy).Contents (Elt F) := cmpi .slt v1 v4
  let v6 : (⟨S800000, .i32⟩ : BufTy).Contents (Elt F) := broadcastInDim S800000 ![] bcast_S_S800000 (constantI S_ 32 50000#32)
  let v7 : (⟨S800000, .i32⟩ : BufTy).Contents (Elt F) := addi v1 v6
  let v8 : (⟨S800000, .i32⟩ : BufTy).Contents (Elt F) := select v5 v7 v1
  let v9 : (⟨S800000x1, .i32⟩ : BufTy).Contents (Elt F) := broadcastInDim S800000x1 ![0] bcast_S800000_S800000x1_0 v8
  let v10 : (⟨S800000x256, .f32⟩ : BufTy).Contents (Elt F) := Host.gather gather_S50000x256_S800000x1_S800000x256_1_0_n_n_0_1_1256 x v9
  let v11 : (⟨S800000x1, .f32⟩ : BufTy).Contents (Elt F) := broadcastInDim S800000x1 ![0] bcast_S800000_S800000x1_0 ew
  let v12 : (⟨S800000x256, .f32⟩ : BufTy).Contents (Elt F) := broadcastInDim S800000x256 ![0, 1] bcast_S800000x1_S800000x256_0_1 v11
  let v13 : (⟨S800000x256, .f32⟩ : BufTy).Contents (Elt F) := mulf v10 v12
  let v14 : (⟨S50000x256, .f32⟩ : BufTy).Contents (Elt F) := broadcastInDim S50000x256 ![] bcast_S_S50000x256 (constant S_ .f32 0x00000000#32)
  let v15 : (⟨S800000x1, .i32⟩ : BufTy).Contents (Elt F) := broadcastInDim S800000x1 ![0] bcast_S800000_S800000x1_0 v3
  Host.scatterAdd scatter_S50000x256_S800000x1_S800000x256_1_0_0_1 v14 v15 v13

end Cert.KernelIdeal.Term

end
-- ==== Proof.RTerm.lean ====
/-
  The reference as one composed term. First the aggregation both programs perform on the host before anything else: every edge carries its source node's
  feature row scaled by the edge's weight to its destination node, and the rows arriving at one node are added.
  A source index below zero is first shifted by the node count. The whole chain is one function of the node
  features, the edge weights and the edge index table.
-/
import proofs.«174193_j481036337798_1_alg».proof.ReferenceIdeal

noncomputable section

namespace Cert.ReferenceIdeal.Term

open Cert.ReferenceIdeal Idealize.ShloMosaic
open Cert.ReferenceIdeal.Facts₀ Cert.ReferenceIdeal.Facts

variable {F : FTy → Type} [FloatOps F] [Cert.ReferenceIdeal.Facts]

/-- The summed messages: row `i` of the result is `∑` over the edges `e` whose destination is `i` of
    (row `src e` of `x`) · `ew e`, on top of a zero array. -/
def agg (x : (⟨S50000x256, .f32⟩ : BufTy).Contents (Elt F)) (ew : (⟨S800000, .f32⟩ : BufTy).Contents (Elt F))
    (ei : (⟨S2x800000, .i32⟩ : BufTy).Contents (Elt F)) : (⟨S50000x256, .f32⟩ : BufTy).Contents (Elt F) :=
  let v1 : (⟨S800000, .i32⟩ : BufTy).Contents (Elt F) :=
    shapeCast S800000 (extractStridedSlice S1x800000 ![0, 0] ei slices_S2x800000_S1x800000_0_0) shapeCasts_S1x800000_S800000
  let v3 : (⟨S800000, .i32⟩ : BufTy).Contents (Elt F) :=
    shapeCast S800000 (extractStridedSlice S1x800000 ![1, 0] ei slices_S2x800000_S1x800000_1_0) shapeCasts_S1x800000_S800000
  let v4 : (⟨S800000, .i32⟩ : BufTy).Contents (Elt F) := broadcastInDim S800000 ![] bcast_S_S800000 (constantI S_ 32 0#32)
  let v5 : (⟨S800000, .i1⟩ : BufTy).Contents (Elt F) := cmpi .slt v1 v4
  let v6 : (⟨S800000, .i32⟩ : BufTy).Contents (Elt F) := broadcastInDim S800000 ![] bcast_S_S800000 (constantI S_ 32 50000#32)
  let v7 : (⟨S800000, .i32⟩ : BufTy).Contents (Elt F) := addi v1 v6
  let v8 : (⟨S800000, .i32⟩ : BufTy).Contents (Elt F) := select v5 v7 v1
  let v9 : (⟨S800000x1, .i32⟩ : BufTy).Contents (Elt F) := broadcastInDim S800000x1 ![0] bcast_S800000_S800000x1_0 v8
  let v10 : (⟨S800000x256, .f32⟩ : BufTy).Contents (Elt F) := Host.gather gather_S50000x256_S800000x1_S800000x256_1_0_n_n_0_1_1256 x v9
  let v11 : (⟨S800000x1, .f32⟩ : BufTy).Contents (Elt F) := broadcastInDim S800000x1 ![0] bcast_S800000_S800000x1_0 ew
  let v12 : (⟨S800000x256, .f32⟩ : BufTy).Contents (Elt F) := broadcastInDim S800000x256 ![0, 1] bcast_S800000x1_S800000x256_0_1 v11
  let v13 : (⟨S800000x256, .f32⟩ : BufTy).Contents (Elt F) := mulf v10 v12
  let v14 : (⟨S50000x256, .f32⟩ : BufTy).Contents (Elt F) := broadcastInDim S50000x256 ![] bcast_S_S50000x256 (constant S_ .f32 0x00000000#32)
  let v15 : (⟨S800000x1, .i32⟩ : BufTy).Contents (Elt F) := broadcastInDim S800000x1 ![0] bcast_S800000_S800000x1_0 v3
  Host.scatterAdd scatter_S50000x256_S800000x1_S800000x256_1_0_0_1 v14 v15 v13

/-- The reference's pre-activation: `agg · W_relᵀ + b_rel + x · W_rootᵀ`, the bias broadcast along the rows. -/
def pre (x : (⟨S50000x256, .f32⟩ : BufTy).Contents (Elt F)) (ew : (⟨S800000, .f32⟩ : BufTy).Contents (Elt F)) (wr : (⟨S256x256, .f32⟩ : BufTy).Contents (Elt F)) (b : (⟨S256, .f32⟩ : BufTy).Contents (Elt F))
    (wo : (⟨S256x256, .f32⟩ : BufTy).Contents (Elt F)) (ei : (⟨S2x800000, .i32⟩ : BufTy).Contents (Elt F)) : (⟨S50000x256, .f32⟩ : BufTy).Contents (Elt F) :=
  let a : (⟨S50000x256, .f32⟩ : BufTy).Contents (Elt F) := agg x ew ei
  let v17 : (⟨S256x256, .f32⟩ : BufTy).Contents (Elt F) := transpose S256x256 [1, 0] wr transposes_S256x256_S256x256_1_0
  let v18 : (⟨S50000x256, .f32⟩ : BufTy).Contents (Elt F) := Host.dotGeneral dot_S50000x256_S256x256_S50000x256_1_0_0_1_n_n none a v17
  let v19 : (⟨S1x256, .f32⟩ : BufTy).Contents (Elt F) := broadcastInDim S1x256 ![1] bcast_S256_S1x256_1 b
  let v20 : (⟨S50000x256, .f32⟩ : BufTy).Contents (Elt F) := broadcastInDim S50000x256 ![0, 1] bcast_S1x256_S50000x256_0_1 v19
  let v21 : (⟨S50000x256, .f32⟩ : BufTy).Contents (Elt F) := addf v18 v20
  let v22 : (⟨S256x256, .f32⟩ : BufTy).Contents (Elt F) := transpose S256x256 [1, 0] wo transposes_S256x256_S256x256_1_0
  let v23 : (⟨S50000x256, .f32⟩ : BufTy).Contents (Elt F) := Host.dotGeneral dot_S50000x256_S256x256_S50000x256_1_0_0_1_n_n none x v22
  addf v21 v23

/-- The column means of `o`: the column sums over the node count. -/
def meanv (o : (⟨S50000x256, .f32⟩ : BufTy).Contents (Elt F)) : (⟨S256, .f32⟩ : BufTy).Contents (Elt F) :=
  let v25 : (⟨S256, .f32⟩ : BufTy).Contents (Elt F) := Host.reduceAdd o (constant S_ .f32 0x00000000#32) reducesTo_S50000x256_S256_d0 h_S_
  let v26 : (⟨S256, .f32⟩ : BufTy).Contents (Elt F) := broadcastInDim S256 ![] bcast_S_S256 (constant S_ .f32 0x47435000#32)
  Host.divf v25 v26

/-- The column variances of `o` (jnp.var with zero degrees of freedom removed): the mean of the squared
    deviations from the column mean, guarded by the test that the divisor is positive. -/
def varv (o : (⟨S50000x256, .f32⟩ : BufTy).Contents (Elt F)) : (⟨S256, .f32⟩ : BufTy).Contents (Elt F) :=
  let cst : (⟨S_, .f32⟩ : BufTy).Contents (Elt F) := constant S_ .f32 0x00000000#32
  let v0 : (⟨S256, .f32⟩ : BufTy).Contents (Elt F) := Host.reduceAdd o cst reducesTo_S50000x256_S256_d0 h_S_
  let v1 : (⟨S1x256, .f32⟩ : BufTy).Contents (Elt F) := broadcastInDim S1x256 ![1] bcast_S256_S1x256_1 v0
  let cst_0 : (⟨S_, .f32⟩ : BufTy).Contents (Elt F) := constant S_ .f32 0x47435000#32
  let v2 : (⟨S1x256, .f32⟩ : BufTy).Contents (Elt F) := broadcastInDim S1x256 ![] bcast_S_S1x256 cst_0
  let v3 : (⟨S1x256, .f32⟩ : BufTy).Contents (Elt F) := Host.divf v1 v2
  let v4 : (⟨S50000x256, .f32⟩ : BufTy).Contents (Elt F) := broadcastInDim S50000x256 ![0, 1] bcast_S1x256_S50000x256_0_1 v3
  let v5 : (⟨S50000x256, .f32⟩ : BufTy).Contents (Elt F) := subf o v4
  let v6 : (⟨S50000x256, .f32⟩ : BufTy).Contents (Elt F) := mulf v5 v5
  let v7 : (⟨S_, .f32⟩ : BufTy).Contents (Elt F) := sitofp .f32 (constantI S_ 32 0#32 : (⟨S_, .i32⟩ : BufTy).Contents (Elt F))
  let cst_1 : (⟨S_, .f32⟩ : BufTy).Contents (Elt F) := constant S_ .f32 0x47435000#32
  let v8 : (⟨S_, .f32⟩ : BufTy).Contents (Elt F) := subf cst_1 v7
  let cst_2 : (⟨S_, .f32⟩ : BufTy).Contents (Elt F) := constant S_ .f32 0x00000000#32
  let v9 : (⟨S256, .f32⟩ : BufTy).Contents (Elt F) := Host.reduceAdd v6 cst_2 reducesTo_S50000x256_S256_d0 h_S_
  let v10 : (⟨S256, .f32⟩ : BufTy).Contents (Elt F) := broadcastInDim S256 ![] bcast_S_S256 v8
  let v11 : (⟨S256, .f32⟩ : BufTy).Contents (Elt F) := Host.divf v9 v10
  let cst_3 : (⟨S_, .f32⟩ : BufTy).Contents (Elt F) := constant S_ .f32 0x00000000#32
  let v12 : (⟨S_, .i1⟩ : BufTy).Contents (Elt F) := cmpf .ogt v8 cst_3
  let cst_4 : (⟨S_, .f32⟩ : BufTy).Contents (Elt F) := constant S_ .f32 0x7FC00000#32
  let w0 : (⟨S_, .f32⟩ : BufTy).Contents (Elt F) := id cst_4
  let w1 : (⟨S256, .f32⟩ : BufTy).Contents (Elt F) := broadcastInDim S256 ![] bcast_S_S256 w0
  select (broadcastInDim S256 ![] bcast_S_S256 v12) v11 w1

/-- The reference's result: the pre-activation normalised column by column, scaled and shifted, clipped at zero,
    the node features added, clipped at zero again. -/
def refOut (x : (⟨S50000x256, .f32⟩ : BufTy).Contents (Elt F)) (ew : (⟨S800000, .f32⟩ : BufTy).Contents (Elt F)) (wr : (⟨S256x256, .f32⟩ : BufTy).Contents (Elt F)) (b : (⟨S256, .f32⟩ : BufTy).Contents (Elt F))
    (wo : (⟨S256x256, .f32⟩ : BufTy).Contents (Elt F)) (g : (⟨S256, .f32⟩ : BufTy).Contents (Elt F)) (β : (⟨S256, .f32⟩ : BufTy).Contents (Elt F)) (ei : (⟨S2x800000, .i32⟩ : BufTy).Contents (Elt F)) : (⟨S50000x256, .f32⟩ : BufTy).Contents (Elt F) :=
  let o : (⟨S50000x256, .f32⟩ : BufTy).Contents (Elt F) := pre x ew wr b wo ei
  let v27 : (⟨S256, .f32⟩ : BufTy).Contents (Elt F) := meanv o
  let v28 : (⟨S256, .f32⟩ : BufTy).Contents (Elt F) := varv o
  let v29 : (⟨S1x256, .f32⟩ : BufTy).Contents (Elt F) := broadcastInDim S1x256 ![1] bcast_S256_S1x256_1 v27
  let v30 : (⟨S50000x256, .f32⟩ : BufTy).Contents (Elt F) := broadcastInDim S50000x256 ![0, 1] bcast_S1x256_S50000x256_0_1 v29
  let v31 : (⟨S50000x256, .f32⟩ : BufTy).Contents (Elt F) := subf o v30
  let v32 : (⟨S256, .f32⟩ : BufTy).Contents (Elt F) := broadcastInDim S256 ![] bcast_S_S256 (constant S_ .f32 0x3727C5AC#32)
  let v33 : (⟨S256, .f32⟩ : BufTy).Contents (Elt F) := addf v28 v32
  let v34 : (⟨S256, .f32⟩ : BufTy).Contents (Elt F) := Host.rsqrt v33
  let v35 : (⟨S1x256, .f32⟩ : BufTy).Contents (Elt F) := broadcastInDim S1x256 ![1] bcast_S256_S1x256_1 v34
  let v36 : (⟨S50000x256, .f32⟩ : BufTy).Contents (Elt F) := broadcastInDim S50000x256 ![0, 1] bcast_S1x256_S50000x256_0_1 v35
  let v37 : (⟨S50000x256, .f32⟩ : BufTy).Contents (Elt F) := mulf v31 v36
  let v38 : (⟨S1x256, .f32⟩ : BufTy).Contents (Elt F) := broadcastInDim S1x256 ![1] bcast_S256_S1x256_1 g
  let v39 : (⟨S50000x256, .f32⟩ : BufTy).Contents (Elt F) := broadcastInDim S50000x256 ![0, 1] bcast_S1x256_S50000x256_0_1 v38
  let v40 : (⟨S50000x256, .f32⟩ : BufTy).Contents (Elt F) := mulf v37 v39
  let v41 : (⟨S1x256, .f32⟩ : BufTy).Contents (Elt F) := broadcastInDim S1x256 ![1] bcast_S256_S1x256_1 β
  let v42 : (⟨S50000x256, .f32⟩ : BufTy).Contents (Elt F) := broadcastInDim S50000x256 ![0, 1] bcast_S1x256_S50000x256_0_1 v41
  let v43 : (⟨S50000x256, .f32⟩ : BufTy).Contents (Elt F) := addf v40 v42
  let z1 : (⟨S50000x256, .f32⟩ : BufTy).Contents (Elt F) := broadcastInDim S50000x256 ![] bcast_S_S50000x256 (constant S_ .f32 0x00000000#32)
  let v44 : (⟨S50000x256, .f32⟩ : BufTy).Contents (Elt F) := maximumf v43 z1
  let v45 : (⟨S50000x256, .f32⟩ : BufTy).Contents (Elt F) := addf v44 x
  let z2 : (⟨S50000x256, .f32⟩ : BufTy).Contents (Elt F) := broadcastInDim S50000x256 ![] bcast_S_S50000x256 (constant S_ .f32 0x00000000#32)
  maximumf v45 z2

end Cert.ReferenceIdeal.Term

end
-- ==== Proof.KHost.lean ====
/- The arrays each kernel finds at its entry, as functions of the program's arguments (before the first kernel) and of the first kernel's output arrays (before the second). -/
import proofs.«174193_j481036337798_1_alg».proof.Proof.Gen.KernelIdeal.Frame
import proofs.«174193_j481036337798_1_alg».proof.Proof.KTerm
import proofs.«174193_j481036337798_1_alg».proof.Proof.Spec
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.HostVal
open Cert.KernelIdeal Cert.KernelIdeal.Gen Cert.GBlock
variable (m : (ℓ : Loc nD τ sig) → Buf (Elt Ideal) ℓ) (ρ : Dev nD → PrngReg) (c : Dev nD)

/-- The first twenty host operations compose to the aggregation: reading the result buffer back through them, each
    at its operands' buffers, gives the aggregation's term at the three arguments. -/
theorem V1_v16 : (Gen.V1 m ρ c main_v16 : S50000x256.Idx → EReal)
    = Term.agg (F := Ideal) (m ((c.tc : Thread nD τ).loc main_arg0)) (m ((c.tc : Thread nD τ).loc main_arg1)) (m ((c.tc : Thread nD τ).loc main_arg7)) := by
  dsimp only [Gen.V1, Gen.W1, Gen.hostOps0]
  after_results_simp
  rfl

/-- The arguments' buffers are written by no host operation before the first kernel. -/
theorem V1_arg0 : (Gen.V1 m ρ c main_arg0 : S50000x256.Idx → EReal) = m ((c.tc : Thread nD τ).loc main_arg0) := by
  dsimp only [Gen.V1, Gen.W1, Gen.hostOps0]
  after_results

/-- The first weight matrix enters the first kernel transposed. -/
theorem V1_v17_eq : (Gen.V1 m ρ c main_v17 : S256x256.Idx → EReal)
    = transpose S256x256 [1, 0] (m ((c.tc : Thread nD τ).loc main_arg2)) transposes_S256x256_S256x256_1_0 := by
  dsimp only [Gen.V1, Gen.W1, Gen.hostOps0]
  after_results
theorem V1_v17 (k q : Fin 256) : (Gen.V1 m ρ c main_v17 : S256x256.Idx → EReal) (ix2 k q) = m ((c.tc : Thread nD τ).loc main_arg2) (ix2 q k) := by
  rw [V1_v17_eq]
  exact transpose_apply [1, 0] _ transposes_S256x256_S256x256_1_0 (ix2 k q) (ix2 q k)
    (fun b => match b with | ⟨0, _⟩ => rfl | ⟨1, _⟩ => rfl)

/-- So does the second. -/
theorem V1_v18_eq : (Gen.V1 m ρ c main_v18 : S256x256.Idx → EReal)
    = transpose S256x256 [1, 0] (m ((c.tc : Thread nD τ).loc main_arg4)) transposes_S256x256_S256x256_1_0 := by
  dsimp only [Gen.V1, Gen.W1, Gen.hostOps0]
  after_results
theorem V1_v18 (k q : Fin 256) : (Gen.V1 m ρ c main_v18 : S256x256.Idx → EReal) (ix2 k q) = m ((c.tc : Thread nD τ).loc main_arg4) (ix2 q k) := by
  rw [V1_v18_eq]
  exact transpose_apply [1, 0] _ transposes_S256x256_S256x256_1_0 (ix2 k q) (ix2 q k)
    (fun b => match b with | ⟨0, _⟩ => rfl | ⟨1, _⟩ => rfl)

/-- A length-256 vector recast as one row of 256 reads, at column `q` of that row, its entry `q`: both have
    row-major position `q`. -/
theorem row_cast (x : S256.Idx → EReal) (q : Fin 256) :
    shapeCast S1x256 x shapeCasts_S256_S1x256 (ix2 (0 : Fin 1) q) = x (ix1 q) := by
  refine shapeCast_apply x shapeCasts_S256_S1x256 (ix2 (0 : Fin 1) q) (ix1 q) ?_
  rw [Shape.rowMajor_val_one, Shape.rowMajor_val_two]
  show q.val = (0 : Fin 1).val * 256 + q.val
  simp

/-- The bias enters the first kernel as one row. -/
theorem V1_v19 (q : Fin 256) : (Gen.V1 m ρ c main_v19 : S1x256.Idx → EReal) (ix2 (0 : Fin 1) q) = m ((c.tc : Thread nD τ).loc main_arg3) (ix1 q) := by
  have e : (Gen.V1 m ρ c main_v19 : S1x256.Idx → EReal)
      = shapeCast S1x256 (m ((c.tc : Thread nD τ).loc main_arg3)) shapeCasts_S256_S1x256 := by
    dsimp only [Gen.V1, Gen.W1, Gen.hostOps0]
    after_results
    rfl
  rw [e]; exact row_cast _ q

/-- The first kernel's output arrays, as the second host stretch finds them: what the first pipeline leaves. -/
theorem W2_v22_0 : Gen.W2 m ρ c (Proc.devRef .tc main_v22_0) = (dat0 (F := Ideal) (Gen.V1 m ρ) c).arrAt 5 cfg0.N := Gen.W2_arr m ρ c 5
theorem W2_v22_1 : Gen.W2 m ρ c (Proc.devRef .tc main_v22_1) = (dat0 (F := Ideal) (Gen.V1 m ρ) c).arrAt 6 cfg0.N := Gen.W2_arr m ρ c 6
theorem W2_v22_2 : Gen.W2 m ρ c (Proc.devRef .tc main_v22_2) = (dat0 (F := Ideal) (Gen.V1 m ρ) c).arrAt 7 cfg0.N := Gen.W2_arr m ρ c 7

/-- No host operation between the kernels writes the first kernel's main output. -/
theorem V3_v22_0 : (Gen.V3 m ρ c main_v22_0 : S50000x256.Idx → EReal) = (dat0 (F := Ideal) (Gen.V1 m ρ) c).arrAt 5 cfg0.N := by
  dsimp only [Gen.V3, Gen.W3, Gen.hostOps1]
  after_results
  exact W2_v22_0 m ρ c

/-- The channel sums divided by the node count: the channel means. -/
theorem V3_v24 (q : Fin 256) : (Gen.V3 m ρ c main_v24 : S1x256.Idx → EReal) (ix2 (0 : Fin 1) q)
    = Ideal.div (((dat0 (F := Ideal) (Gen.V1 m ρ) c).arrAt 6 cfg0.N : S1x256.Idx → EReal) (ix2 (0 : Fin 1) q)) c50000 := by
  dsimp only [Gen.V3, Gen.W3, Gen.hostOps1]
  after_results
  rw [W2_v22_1 m ρ c]
  rfl

/-- The channel sums of squares divided by the node count, minus the squared channel means. -/
theorem V3_v28 (q : Fin 256) : (Gen.V3 m ρ c main_v28 : S1x256.Idx → EReal) (ix2 (0 : Fin 1) q)
    = Ideal.div (((dat0 (F := Ideal) (Gen.V1 m ρ) c).arrAt 7 cfg0.N : S1x256.Idx → EReal) (ix2 (0 : Fin 1) q)) c50000
      - Ideal.div (((dat0 (F := Ideal) (Gen.V1 m ρ) c).arrAt 6 cfg0.N : S1x256.Idx → EReal) (ix2 (0 : Fin 1) q)) c50000
        * Ideal.div (((dat0 (F := Ideal) (Gen.V1 m ρ) c).arrAt 6 cfg0.N : S1x256.Idx → EReal) (ix2 (0 : Fin 1) q)) c50000 := by
  dsimp only [Gen.V3, Gen.W3, Gen.hostOps1]
  after_results
  rw [W2_v22_1 m ρ c, W2_v22_2 m ρ c]
  rfl

/-- A buffer that neither the host operations between the kernels nor the first kernel writes holds, at the second
    kernel's entry, what it held at the first kernel's entry. -/
theorem V3_v20 (q : Fin 256) : (Gen.V3 m ρ c main_v20 : S1x256.Idx → EReal) (ix2 (0 : Fin 1) q) = m ((c.tc : Thread nD τ).loc main_arg5) (ix1 q) := by
  have h3 : Gen.W3 m ρ c (Proc.devRef .tc main_v20) = Gen.W2 m ρ c (Proc.devRef .tc main_v20) := by
    dsimp only [Gen.W3, Gen.hostOps1]
    after_results
  have h2 : Gen.W2 m ρ c (Proc.devRef .tc main_v20) = Gen.W1 m ρ c (Proc.devRef .tc main_v20) :=
    Gen.W2_of_ne m ρ c main_v20 (by decide)
  have h1 : (Gen.W1 m ρ c (Proc.devRef .tc main_v20) : S1x256.Idx → EReal)
      = shapeCast S1x256 (m ((c.tc : Thread nD τ).loc main_arg5)) shapeCasts_S256_S1x256 := by
    dsimp only [Gen.W1, Gen.hostOps0]
    after_results
    rfl
  have e : (Gen.V3 m ρ c main_v20 : S1x256.Idx → EReal)
      = shapeCast S1x256 (m ((c.tc : Thread nD τ).loc main_arg5)) shapeCasts_S256_S1x256 := h3.trans (h2.trans h1)
  rw [e]; exact row_cast _ q

theorem V3_v21 (q : Fin 256) : (Gen.V3 m ρ c main_v21 : S1x256.Idx → EReal) (ix2 (0 : Fin 1) q) = m ((c.tc : Thread nD τ).loc main_arg6) (ix1 q) := by
  have h3 : Gen.W3 m ρ c (Proc.devRef .tc main_v21) = Gen.W2 m ρ c (Proc.devRef .tc main_v21) := by
    dsimp only [Gen.W3, Gen.hostOps1]
    after_results
  have h2 : Gen.W2 m ρ c (Proc.devRef .tc main_v21) = Gen.W1 m ρ c (Proc.devRef .tc main_v21) :=
    Gen.W2_of_ne m ρ c main_v21 (by decide)
  have h1 : (Gen.W1 m ρ c (Proc.devRef .tc main_v21) : S1x256.Idx → EReal)
      = shapeCast S1x256 (m ((c.tc : Thread nD τ).loc main_arg6)) shapeCasts_S256_S1x256 := by
    dsimp only [Gen.W1, Gen.hostOps0]
    after_results
    rfl
  have e : (Gen.V3 m ρ c main_v21 : S1x256.Idx → EReal)
      = shapeCast S1x256 (m ((c.tc : Thread nD τ).loc main_arg6)) shapeCasts_S256_S1x256 := h3.trans (h2.trans h1)
  rw [e]; exact row_cast _ q

/-- The node features are an input array of the first kernel, which leaves its input arrays as it found them. -/
theorem V3_arg0 : (Gen.V3 m ρ c main_arg0 : S50000x256.Idx → EReal) = m ((c.tc : Thread nD τ).loc main_arg0) := by
  have h3 : Gen.W3 m ρ c (Proc.devRef .tc main_arg0) = Gen.W2 m ρ c (Proc.devRef .tc main_arg0) := by
    dsimp only [Gen.W3, Gen.hostOps1]
    after_results
  have h2 : Gen.W2 m ρ c (Proc.devRef .tc main_arg0) = Gen.W1 m ρ c (Proc.devRef .tc main_arg0) :=
    (Gen.W2_arr m ρ c 1).trans (((dat0 (Gen.V1 m ρ) c).arrAt_in 1 rfl _).trans (Gen.A_eq0 (Gen.V1 m ρ) c 1))
  exact h3.trans (h2.trans (V1_arg0 m ρ c))
end Cert.KernelIdeal.HostVal

end
-- ==== Proof.Payload.lean ====
/- The two kernel bodies' arithmetic read at an index: each stored value as a plain expression of the loaded blocks' entries. -/
import proofs.«174193_j481036337798_1_alg».proof.Proof.Gen.KernelIdeal.Skeleton
import proofs.«174193_j481036337798_1_alg».proof.Proof.Spec
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Payload
open Cert.KernelIdeal Cert.KernelIdeal.Gen Cert.GBlock

/-! ## The matrix product of a 2000×256 block by a 256×256 matrix, entry by entry -/

/-- At output entry (p, q), with coordinate k on the one contracted axis, the left operand is read at (p, k) … -/
theorem lhsIdx_at (p : Fin 2000) (q k : Fin 256) :
    dot_S2000x256_S256x256_S2000x256_1_0_0_1_n_n.lhsIdx (ix2 p q)
      ((contrEquiv1 dot_S2000x256_S256x256_S2000x256_1_0_0_1_n_n 256 rfl rfl).symm k) = ix2 p k := by
  funext a
  apply Fin.ext
  match a with
  | ⟨0, _⟩ => rfl
  | ⟨1, _⟩ => exact contrEquiv1_symm_val dot_S2000x256_S256x256_S2000x256_1_0_0_1_n_n 256 rfl rfl k

/-- … and the right operand at (k, q). -/
theorem rhsIdx_at (p : Fin 2000) (q k : Fin 256) :
    dot_S2000x256_S256x256_S2000x256_1_0_0_1_n_n.rhsIdx (ix2 p q)
      ((contrEquiv1 dot_S2000x256_S256x256_S2000x256_1_0_0_1_n_n 256 rfl rfl).symm k) = ix2 k q := by
  funext a
  apply Fin.ext
  match a with
  | ⟨0, _⟩ => exact contrEquiv1_symm_val dot_S2000x256_S256x256_S2000x256_1_0_0_1_n_n 256 rfl rfl k
  | ⟨1, _⟩ => rfl

/-- The product accumulated into the zero block, at (p, q): the sum over k of l (p, k) · r (k, q). -/
theorem matmul_at {φ₁ φ₂ : FTy} (l : FVec Ideal S2000x256 φ₁) (r : FVec Ideal S256x256 φ₂) (p : Fin 2000) (q : Fin 256) :
    matmul dot_S2000x256_S256x256_S2000x256_1_0_0_1_n_n none l r (constant S2000x256 .f32 0x00000000#32) (ix2 p q)
      = ∑ k : Fin 256, l (ix2 p k) * r (ix2 k q) := by
  refine (Ideal.matmul_constant_zero_apply dot_S2000x256_S256x256_S2000x256_1_0_0_1_n_n none l r (ix2 p q)).trans ?_
  rw [← Equiv.sum_comp (contrEquiv1 dot_S2000x256_S256x256_S2000x256_1_0_0_1_n_n 256 rfl rfl).symm]
  refine Finset.sum_congr rfl fun k _ => ?_
  rw [lhsIdx_at, rhsIdx_at]

/-! ## A sum down the columns of a matrix -/

/-- Column q of an a×b matrix with row k put back in front is the entry (k, q). -/
theorem lift_col {a b : ℕ} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c
  apply Fin.ext
  match c with
  | ⟨0, _⟩ => rfl
  | ⟨1, _⟩ => rfl

/-- The sum over the rows of an a×b matrix of f32 entries, started from the zero word, at column q. -/
theorem colsum_at {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (q : Fin b) :
    multiReduction (F := Ideal) .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (lift_col h q k)

theorem pay4_apply (v3 v6 : Vec Ideal S2000x256 .f32) (v8 v11 : Vec Ideal S256x256 .f32) (v17 : Vec Ideal S1x256 .f32)
    (r : Fin 2000) (q : Fin 256) :
    k0_pay4 (F := Ideal) v3 v6 v8 v11 v17 (ix2 r q)
      = (∑ k : Fin 256, v3 (ix2 r k) * v8 (ix2 k q) + ∑ k : Fin 256, v6 (ix2 r k) * v11 (ix2 k q)) + v17 (ix2 (0 : Fin 1) q) := by
  unfold k0_pay4
  rw [addf_apply, addf_apply, matmul_at, matmul_at, broadcastTo_1b_ab_apply]
  simp only [truncf_apply, shapeCast_self]
theorem pay5_apply (v3 v6 : Vec Ideal S2000x256 .f32) (v8 v11 : Vec Ideal S256x256 .f32) (v17 v22 : Vec Ideal S1x256 .f32) (q : Fin 256) :
    k0_pay5 (F := Ideal) v3 v6 v8 v11 v17 v22 (ix2 (0 : Fin 1) q)
      = v22 (ix2 (0 : Fin 1) q) + ∑ r : Fin 2000, k0_pay4 (F := Ideal) v3 v6 v8 v11 v17 (ix2 r q) := by
  unfold k0_pay5
  rw [addf_apply, shapeCast_self, shapeCast_a_1a_apply, colsum_at]
theorem pay7_apply (v3 v6 : Vec Ideal S2000x256 .f32) (v8 v11 : Vec Ideal S256x256 .f32) (v17 : Vec Ideal S1x256 .f32) (q : Fin 256) :
    k0_pay7 (F := Ideal) v3 v6 v8 v11 v17 (ix1 q)
      = ∑ r : Fin 2000, k0_pay4 (F := Ideal) v3 v6 v8 v11 v17 (ix2 r q) * k0_pay4 (F := Ideal) v3 v6 v8 v11 v17 (ix2 r q) := by
  unfold k0_pay7
  rw [colsum_at]
  rfl
theorem pay1_apply (v29 : FVec Ideal S1x256 .f32) (v31 : FVec Ideal S256 .f32) (q : Fin 256) :
    k0_pay1 (F := Ideal) v29 v31 (ix2 (0 : Fin 1) q) = v29 (ix2 (0 : Fin 1) q) + v31 (ix1 q) := by
  unfold k0_pay1
  rw [addf_apply, shapeCast_a_1a_apply]
theorem pay6_apply (v28 : Vec Ideal S1x256 .f32) (q : Fin 256) : k0_pay6 (F := Ideal) v28 (ix2 (0 : Fin 1) q) = v28 (ix2 (0 : Fin 1) q) := by
  unfold k0_pay6
  rw [shapeCast_self]
theorem pay2_apply (q : Fin 256) : k0_pay2 (F := Ideal) (ix2 (0 : Fin 1) q) = 0 := by
  unfold k0_pay2
  exact Ideal.ofBits_zero_f32
theorem pay3_apply (q : Fin 256) : k0_pay3 (F := Ideal) (ix2 (0 : Fin 1) q) = 0 := by
  unfold k0_pay3
  exact Ideal.ofBits_zero_f32
theorem k1_pay1_apply (v0 : Vec Ideal S5000x256 .f32) (v2 v7 v13 v17 : Vec Ideal S1x256 .f32) (v23 : Vec Ideal S5000x256 .f32)
    (r : Fin 5000) (q : Fin 256) :
    k1_pay1 (F := Ideal) v0 v2 v7 v13 v17 v23 (ix2 r q)
      = max (max ((v0 (ix2 r q) - v7 (ix2 (0 : Fin 1) q)) * Ideal.rsqrt (v2 (ix2 (0 : Fin 1) q) + eps) * v13 (ix2 (0 : Fin 1) q)
              + v17 (ix2 (0 : Fin 1) q)) 0 + v23 (ix2 r q)) 0 := by
  unfold k1_pay1
  simp only [shapeCast_self]
  rw [maximumf_apply, addf_apply, maximumf_apply, addf_apply, mulf_apply, mulf_apply, subf_apply,
    broadcastTo_1b_ab_apply, broadcastTo_1b_ab_apply, broadcastTo_1b_ab_apply, broadcastTo_1b_ab_apply]
  show max (max ((v0 (ix2 r q) - v7 (ix2 (0 : Fin 1) q))
      * Ideal.rsqrt (v2 (ix2 (0 : Fin 1) q) + Ideal.ofBits .f32 0x3727C5AC#32) * v13 (ix2 (0 : Fin 1) q)
      + v17 (ix2 (0 : Fin 1) q)) (Ideal.ofBits .f32 0x00000000#32) + v23 (ix2 r q)) (Ideal.ofBits .f32 0x00000000#32) = _
  rw [Ideal.ofBits_zero_f32]
  rfl
end Cert.KernelIdeal.Payload

end
-- ==== Proof.KReg0.lean ====
/- What the first kernel leaves in its three output arrays, for any contents it finds at its entry: the pre-activation, and its column sums and column sums of squares accumulated over the 25 row blocks. -/
import proofs.«174193_j481036337798_1_alg».proof.Proof.Gen.KernelIdeal.Frame
import proofs.«174193_j481036337798_1_alg».proof.Proof.Payload
import proofs.«174193_j481036337798_1_alg».proof.Proof.Spec
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Reg0
open Cert.KernelIdeal Cert.KernelIdeal.Gen Cert.GBlock
/-! ## What each control case leaves in the three output blocks, as the body's arithmetic over the blocks it loads -/

section Pieces
variable {F : FTy → Type} [FloatOps F]

/-- The zero offsets of a whole-block access, however spelt. -/
theorem hz : (![0, 0] : Fin 2 → Nat) = fun _ => 0 := funext fun a => by fin_cases a <;> rfl

/-- At the first point the pre-activation block is the body's matrix products plus bias of the five blocks it loads. -/
theorem outA5 (c : Dev nD) (i : grid0.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : cond0_0 i) (x0 x1 : Vec F S2000x256 .f32) (x2 : Vec F S256x256 .f32) (x3 : Vec F S1x256 .f32) (x4 : Vec F S256x256 .f32) :
    out0_A_5 c i a1 h1 a2 h2 a3 h3 a4 h4 a5 h5 a6 h6 a7 h7 a8 h8 hc x0 x1 x2 x3 x4 = k0_pay4 x0 x1 x2 x4 x3 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero (S := S2000x256) hz]
  simp only [View.readAt_eq_ld, h1.read_unread, h2.read_unread, h3.read_unread, h4.read_unread, h5.read_unread, View.ld_unit_zero (S := S2000x256) hz, View.ld_unit_zero (S := S256x256) hz, View.ld_unit_zero (S := S1x256) hz]

/-- At the first point the column-sum block is zeroed, read back, and this block's column sums are added to it. -/
theorem outA6 (c : Dev nD) (i : grid0.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : cond0_0 i) (x0 x1 : Vec F S2000x256 .f32) (x2 : Vec F S256x256 .f32) (x3 : Vec F S1x256 .f32) (x4 : Vec F S256x256 .f32) :
    out0_A_6 c i a1 h1 a2 h2 a3 h3 a4 h4 a5 h5 a6 h6 a7 h7 a8 h8 hc x0 x1 x2 x3 x4 = k0_pay5 x0 x1 x2 x4 x3 (k0_pay2 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, View.ld_unit_zero (S := S2000x256) hz, View.ld_unit_zero (S := S256x256) hz, View.ld_unit_zero (S := S1x256) hz]

/-- At the first point the sum-of-squares block is zeroed, read back, and this block's column sums of squares are added to it. -/
theorem outA7 (c : Dev nD) (i : grid0.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : cond0_0 i) (x0 x1 : Vec F S2000x256 .f32) (x2 : Vec F S256x256 .f32) (x3 : Vec F S1x256 .f32) (x4 : Vec F S256x256 .f32) :
    out0_A_7 c i a1 h1 a2 h2 a3 h3 a4 h4 a5 h5 a6 h6 a7 h7 a8 h8 hc x0 x1 x2 x3 x4 = k0_pay1 (k0_pay6 (k0_pay3 (F := F))) (k0_pay7 x0 x1 x2 x4 x3) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, View.ld_unit_zero (S := S2000x256) hz, View.ld_unit_zero (S := S256x256) hz, View.ld_unit_zero (S := S1x256) hz]

/-- At a later point the pre-activation block is the same arithmetic of that point's blocks. -/
theorem outB5 (c : Dev nD) (i : grid0.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : ¬cond0_0 i) (x0 x1 : Vec F S2000x256 .f32) (x2 : Vec F S256x256 .f32) (x3 : Vec F S1x256 .f32) (x4 : Vec F S256x256 .f32) (xo6 xo7 : Vec F S1x256 .f32) :
    out0_B_5 c i a1 h1 a2 h2 a3 h3 a4 h4 a5 h5 a6 h6 a7 h7 a8 h8 hc x0 x1 x2 x3 x4 xo6 xo7 = k0_pay4 x0 x1 x2 x4 x3 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero (S := S2000x256) hz]
  simp only [View.readAt_eq_ld, h1.read_unread, h2.read_unread, h3.read_unread, h4.read_unread, h5.read_unread, View.ld_unit_zero (S := S2000x256) hz, View.ld_unit_zero (S := S256x256) hz, View.ld_unit_zero (S := S1x256) hz]

/-- At a later point this block's column sums are added to what the column-sum block held. -/
theorem outB6 (c : Dev nD) (i : grid0.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : ¬cond0_0 i) (x0 x1 : Vec F S2000x256 .f32) (x2 : Vec F S256x256 .f32) (x3 : Vec F S1x256 .f32) (x4 : Vec F S256x256 .f32) (xo6 xo7 : Vec F S1x256 .f32) :
    out0_B_6 c i a1 h1 a2 h2 a3 h3 a4 h4 a5 h5 a6 h6 a7 h7 a8 h8 hc x0 x1 x2 x3 x4 xo6 xo7 = k0_pay5 x0 x1 x2 x4 x3 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero (S := S1x256) hz]
  simp only [View.readAt_eq_ld, h1.read_unread, h2.read_unread, h3.read_unread, h4.read_unread, h5.read_unread, h7.read_unread, View.ld_unit_zero (S := S2000x256) hz, View.ld_unit_zero (S := S256x256) hz, View.ld_unit_zero (S := S1x256) hz]

/-- At a later point this block's column sums of squares are added to what the sum-of-squares block held. -/
theorem outB7 (c : Dev nD) (i : grid0.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : ¬cond0_0 i) (x0 x1 : Vec F S2000x256 .f32) (x2 : Vec F S256x256 .f32) (x3 : Vec F S1x256 .f32) (x4 : Vec F S256x256 .f32) (xo6 xo7 : Vec F S1x256 .f32) :
    out0_B_7 c i a1 h1 a2 h2 a3 h3 a4 h4 a5 h5 a6 h6 a7 h7 a8 h8 hc x0 x1 x2 x3 x4 xo6 xo7 = k0_pay1 (k0_pay6 xo7) (k0_pay7 x0 x1 x2 x4 x3) := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero (S := S1x256) hz]
  simp only [View.readAt_eq_ld, h1.read_unread, h2.read_unread, h3.read_unread, h4.read_unread, h5.read_unread, h8.read_unread, View.ld_unit_zero (S := S2000x256) hz, View.ld_unit_zero (S := S256x256) hz, View.ld_unit_zero (S := S1x256) hz]

end Pieces

variable (V : (c : Dev nD) → (b : Ref sig .tc) → Buf (Elt Ideal) ((c : Thread nD τ).loc b)) (c : Dev nD)
abbrev aggA : S50000x256.Idx → EReal := V c main_v16
abbrev xA : S50000x256.Idx → EReal := V c main_arg0
abbrev wrA : S256x256.Idx → EReal := V c main_v17
abbrev bA : S1x256.Idx → EReal := V c main_v19
abbrev woA : S256x256.Idx → EReal := V c main_v18
/-- The pre-activation of the arrays region 0 finds at its entry (kernel's order of additions). -/
def o (p : Fin 50000) (q : Fin 256) : EReal :=
  preK (fun p k => aggA V c (ix2 p k)) (fun p k => xA V c (ix2 p k)) (fun q k => wrA V c (ix2 k q))
    (fun q k => woA V c (ix2 k q)) (fun q => bA V c (ix2 (0 : Fin 1) q)) p q

/-! ## The input blocks at a point, read at an index -/

/-- The five input blocks at point `t`, at their literal vector types. -/
abbrev blkA (t : Fin cfg0.N) : Vec Ideal S2000x256 .f32 := iblk0 V c 0 t
abbrev blkX (t : Fin cfg0.N) : Vec Ideal S2000x256 .f32 := iblk0 V c 1 t
abbrev blkWr (t : Fin cfg0.N) : Vec Ideal S256x256 .f32 := iblk0 V c 2 t
abbrev blkB (t : Fin cfg0.N) : Vec Ideal S1x256 .f32 := iblk0 V c 3 t
abbrev blkWo (t : Fin cfg0.N) : Vec Ideal S256x256 .f32 := iblk0 V c 4 t

/-- The two row-blocked inputs sit at block (t, 0); the three whole arrays at block (0, 0). -/
theorem index0_0 : ∀ t : Fin grid0.N, win0_0.index t 0 = t.val ∧ win0_0.index t 1 = 0 := by decide +kernel
theorem index0_1 : ∀ t : Fin grid0.N, win0_1.index t 0 = t.val ∧ win0_1.index t 1 = 0 := by decide +kernel
theorem index0_2 : ∀ t : Fin grid0.N, win0_2.index t 0 = 0 ∧ win0_2.index t 1 = 0 := by decide +kernel
theorem index0_3 : ∀ t : Fin grid0.N, win0_3.index t 0 = 0 ∧ win0_3.index t 1 = 0 := by decide +kernel
theorem index0_4 : ∀ t : Fin grid0.N, win0_4.index t 0 = 0 ∧ win0_4.index t 1 = 0 := by decide +kernel

/-- Row `r` of the aggregated-neighbour block at point `t` is row `2000·t + r` of the array. -/
theorem blkA_apply (t : Fin cfg0.N) (r : Fin 2000) (k : Fin 256) (p : Fin 50000) (hp : p.val = 2000 * t.val + r.val) :
    blkA V c t (ix2 r k) = aggA V c (ix2 p k) := by
  have hi := index0_0 t
  show iblk0 V c 0 t (ix2 r k) = _
  unfold iblk0
  rw [View.read_apply]
  show V c main_v16 _ = V c main_v16 _
  congr 1
  funext a
  apply Fin.ext
  match a with
  | ⟨0, _⟩ => show win0_0.index t 0 * 2000 + 1 * r.val = p.val; rw [hi.1, hp]; omega
  | ⟨1, _⟩ => show win0_0.index t 1 * 256 + 1 * k.val = k.val; rw [hi.2]; omega

/-- Likewise for the node's own features. -/
theorem blkX_apply (t : Fin cfg0.N) (r : Fin 2000) (k : Fin 256) (p : Fin 50000) (hp : p.val = 2000 * t.val + r.val) :
    blkX V c t (ix2 r k) = xA V c (ix2 p k) := by
  have hi := index0_1 t
  show iblk0 V c 1 t (ix2 r k) = _
  unfold iblk0
  rw [View.read_apply]
  show V c main_arg0 _ = V c main_arg0 _
  congr 1
  funext a
  apply Fin.ext
  match a with
  | ⟨0, _⟩ => show win0_1.index t 0 * 2000 + 1 * r.val = p.val; rw [hi.1, hp]; omega
  | ⟨1, _⟩ => show win0_1.index t 1 * 256 + 1 * k.val = k.val; rw [hi.2]; omega

/-- The weight and bias windows hold their whole arrays at every point. -/
theorem blkWr_apply (t : Fin cfg0.N) (k q : Fin 256) : blkWr V c t (ix2 k q) = wrA V c (ix2 k q) := by
  have hi := index0_2 t
  show iblk0 V c 2 t (ix2 k q) = _
  unfold iblk0
  rw [View.read_apply]
  show V c main_v17 _ = V c main_v17 _
  congr 1
  funext a
  apply Fin.ext
  match a with
  | ⟨0, _⟩ => show win0_2.index t 0 * 256 + 1 * k.val = k.val; rw [hi.1]; omega
  | ⟨1, _⟩ => show win0_2.index t 1 * 256 + 1 * q.val = q.val; rw [hi.2]; omega

theorem blkB_apply (t : Fin cfg0.N) (q : Fin 256) : blkB V c t (ix2 (0 : Fin 1) q) = bA V c (ix2 (0 : Fin 1) q) := by
  have hi := index0_3 t
  show iblk0 V c 3 t (ix2 (0 : Fin 1) q) = _
  unfold iblk0
  rw [View.read_apply]
  show V c main_v19 _ = V c main_v19 _
  congr 1
  funext a
  apply Fin.ext
  match a with
  | ⟨0, _⟩ => show win0_3.index t 0 * 1 + 1 * 0 = 0; rw [hi.1]
  | ⟨1, _⟩ => show win0_3.index t 1 * 256 + 1 * q.val = q.val; rw [hi.2]; omega

theorem blkWo_apply (t : Fin cfg0.N) (k q : Fin 256) : blkWo V c t (ix2 k q) = woA V c (ix2 k q) := by
  have hi := index0_4 t
  show iblk0 V c 4 t (ix2 k q) = _
  unfold iblk0
  rw [View.read_apply]
  show V c main_v18 _ = V c main_v18 _
  congr 1
  funext a
  apply Fin.ext
  match a with
  | ⟨0, _⟩ => show win0_4.index t 0 * 256 + 1 * k.val = k.val; rw [hi.1]; omega
  | ⟨1, _⟩ => show win0_4.index t 1 * 256 + 1 * q.val = q.val; rw [hi.2]; omega

/-! ## The three output blocks after a point, as the body's arithmetic over that point's input blocks -/

/-- The pre-activation block a point leaves (either case). -/
theorem pre_A (t : Fin cfg0.N) (h0 : t.val % 25 = 0) :
    (outsAt0 V c t.val t.isLt).1 = k0_pay4 (blkA V c t) (blkX V c t) (blkWr V c t) (blkWo V c t) (blkB V c t) := by
  rw [outsAt0_A V c t h0]
  dsimp only
  exact outA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)
theorem pre_B (t : Fin cfg0.N) (h0 : ¬t.val % 25 = 0) :
    (outsAt0 V c t.val t.isLt).1 = k0_pay4 (blkA V c t) (blkX V c t) (blkWr V c t) (blkWo V c t) (blkB V c t) := by
  rw [outsAt0_B V c t h0]
  dsimp only
  exact outB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

/-- The column-sum block: zeroed then added to at the first point, added to what the point before left afterwards. -/
theorem sum_A (t : Fin cfg0.N) (h0 : t.val % 25 = 0) :
    (outsAt0 V c t.val t.isLt).2.1 = k0_pay5 (blkA V c t) (blkX V c t) (blkWr V c t) (blkWo V c t) (blkB V c t) (k0_pay2 (F := Ideal)) := by
  rw [outsAt0_A V c t h0]
  dsimp only
  exact outA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)
theorem sum_B (t : Fin cfg0.N) (h0 : ¬t.val % 25 = 0) :
    (outsAt0 V c t.val t.isLt).2.1 = k0_pay5 (blkA V c t) (blkX V c t) (blkWr V c t) (blkWo V c t) (blkB V c t) (outsAt0 V c (t.val - 1) (Nat.lt_of_le_of_lt (Nat.sub_le _ _) t.isLt)).2.1 := by
  rw [outsAt0_B V c t h0]
  dsimp only
  exact outB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

/-- The column-sum-of-squares block, likewise. -/
theorem sq_A (t : Fin cfg0.N) (h0 : t.val % 25 = 0) :
    (outsAt0 V c t.val t.isLt).2.2 = k0_pay1 (k0_pay6 (k0_pay3 (F := Ideal))) (k0_pay7 (blkA V c t) (blkX V c t) (blkWr V c t) (blkWo V c t) (blkB V c t)) := by
  rw [outsAt0_A V c t h0]
  dsimp only
  exact outA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)
theorem sq_B (t : Fin cfg0.N) (h0 : ¬t.val % 25 = 0) :
    (outsAt0 V c t.val t.isLt).2.2 = k0_pay1 (k0_pay6 (outsAt0 V c (t.val - 1) (Nat.lt_of_le_of_lt (Nat.sub_le _ _) t.isLt)).2.2) (k0_pay7 (blkA V c t) (blkX V c t) (blkWr V c t) (blkWo V c t) (blkB V c t)) := by
  rw [outsAt0_B V c t h0]
  dsimp only
  exact outB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

/-- Row `r` of the pre-activation block at point `t` is the pre-activation of node `2000·t + r`. -/
theorem pre_at (t : Fin cfg0.N) (r : Fin 2000) (q : Fin 256) (p : Fin 50000) (hp : p.val = 2000 * t.val + r.val) :
    k0_pay4 (F := Ideal) (blkA V c t) (blkX V c t) (blkWr V c t) (blkWo V c t) (blkB V c t) (ix2 r q) = o V c p q := by
  refine (Payload.pay4_apply _ _ _ _ _ r q).trans ?_
  show (∑ k : Fin 256, blkA V c t (ix2 r k) * blkWr V c t (ix2 k q) + ∑ k : Fin 256, blkX V c t (ix2 r k) * blkWo V c t (ix2 k q))
        + blkB V c t (ix2 (0 : Fin 1) q)
      = (∑ k : Fin 256, aggA V c (ix2 p k) * wrA V c (ix2 k q) + ∑ k : Fin 256, xA V c (ix2 p k) * woA V c (ix2 k q))
        + bA V c (ix2 (0 : Fin 1) q)
  rw [blkB_apply V c t q, Finset.sum_congr rfl (fun k _ => by rw [blkA_apply V c t r k p hp, blkWr_apply V c t k q] :
        ∀ k ∈ (Finset.univ : Finset (Fin 256)), blkA V c t (ix2 r k) * blkWr V c t (ix2 k q) = aggA V c (ix2 p k) * wrA V c (ix2 k q)),
    Finset.sum_congr rfl (fun k _ => by rw [blkX_apply V c t r k p hp, blkWo_apply V c t k q] :
        ∀ k ∈ (Finset.univ : Finset (Fin 256)), blkX V c t (ix2 r k) * blkWo V c t (ix2 k q) = xA V c (ix2 p k) * woA V c (ix2 k q))]

/-! ## The running sums: after point `n` the two accumulator blocks hold the sums over the nodes of blocks `0 … n` -/

theorem sum_after : ∀ (n : ℕ) (h : n < cfg0.N) (q : Fin 256),
    (outsAt0 V c n h).2.1 (ix2 (0 : Fin 1) q)
      = ∑ p ∈ Finset.univ.filter (fun p : Fin 50000 => p.val < 2000 * (n + 1)), o V c p q
  | 0, h, q => by
    refine (congrFun (sum_A V c ⟨0, h⟩ rfl) (ix2 (0 : Fin 1) q)).trans ?_
    refine (Payload.pay5_apply _ _ _ _ _ _ q).trans ?_
    rw [sum_lt_succ_block (fun p => o V c p q) 0 (by omega), sum_lt_zero, Payload.pay2_apply]
    congr 1
    exact Finset.sum_congr rfl fun r _ => pre_at V c ⟨0, h⟩ r q _ rfl
  | n + 1, h, q => by
    have hN : cfg0.N = 25 := N_0
    have hB : ¬(⟨n + 1, h⟩ : Fin cfg0.N).val % 25 = 0 := by dsimp only; omega
    refine (congrFun (sum_B V c ⟨n + 1, h⟩ hB) (ix2 (0 : Fin 1) q)).trans ?_
    refine (Payload.pay5_apply _ _ _ _ _ _ q).trans ?_
    rw [sum_lt_succ_block (fun p => o V c p q) (n + 1) (by omega)]
    exact congrArg₂ (fun a b : EReal => a + b) (sum_after n (Nat.lt_of_succ_lt h) q)
      (Finset.sum_congr rfl fun r _ => pre_at V c ⟨n + 1, h⟩ r q ⟨2000 * (n + 1) + r.val, by have := r.isLt; omega⟩ rfl)

theorem sq_after : ∀ (n : ℕ) (h : n < cfg0.N) (q : Fin 256),
    (outsAt0 V c n h).2.2 (ix2 (0 : Fin 1) q)
      = ∑ p ∈ Finset.univ.filter (fun p : Fin 50000 => p.val < 2000 * (n + 1)), o V c p q * o V c p q
  | 0, h, q => by
    refine (congrFun (sq_A V c ⟨0, h⟩ rfl) (ix2 (0 : Fin 1) q)).trans ?_
    refine (Payload.pay1_apply _ _ q).trans ?_
    rw [Payload.pay6_apply, Payload.pay3_apply, Payload.pay7_apply,
      sum_lt_succ_block (fun p => o V c p q * o V c p q) 0 (by omega), sum_lt_zero]
    congr 1
    refine Finset.sum_congr rfl fun r _ => ?_
    rw [pre_at V c ⟨0, h⟩ r q ⟨2000 * 0 + r.val, by have := r.isLt; omega⟩ rfl]
  | n + 1, h, q => by
    have hN : cfg0.N = 25 := N_0
    have hB : ¬(⟨n + 1, h⟩ : Fin cfg0.N).val % 25 = 0 := by dsimp only; omega
    refine (congrFun (sq_B V c ⟨n + 1, h⟩ hB) (ix2 (0 : Fin 1) q)).trans ?_
    refine (Payload.pay1_apply _ _ q).trans ?_
    rw [Payload.pay6_apply, Payload.pay7_apply,
      sum_lt_succ_block (fun p => o V c p q * o V c p q) (n + 1) (by omega)]
    exact congrArg₂ (fun a b : EReal => a + b) (sq_after n (Nat.lt_of_succ_lt h) q)
      (Finset.sum_congr rfl fun r _ => by
        rw [pre_at V c ⟨n + 1, h⟩ r q ⟨2000 * (n + 1) + r.val, by have := r.isLt; omega⟩ rfl])

/-! ## The three arrays after the region -/

/-- The last point of the grid. -/
abbrev tLast : Fin cfg0.N := ⟨24, by decide⟩

/-- What the last point leaves in the two accumulator blocks, as contents of their arrays (each block is its whole array). -/
abbrev sumG : Buf (Elt Ideal) ((c : Thread nD τ).loc main_v22_1) := (outsAt0 V c 24 (tLast).isLt).2.1
abbrev sqG : Buf (Elt Ideal) ((c : Thread nD τ).loc main_v22_2) := (outsAt0 V c 24 (tLast).isLt).2.2

/-- The accumulators' block sits at (0, 0) of its array at the last point, as at every point. -/
theorem off6 : (fun a => win0_6.index tLast a * main_v22_1.ty.shape.size a) = fun _ => 0 := by
  funext a; fin_cases a <;> decide +kernel
theorem off7 : (fun a => win0_7.index tLast a * main_v22_2.ty.shape.size a) = fun _ => 0 := by
  funext a; fin_cases a <;> decide +kernel

/-- The only write-back of the column sums, after the last point, writes what that point left. -/
theorem flushed6 (t : Fin cfg0.N) (hf : (cfg0.win 6).flush t = true) :
    (dat0 V c).flushed 6 t = ((cfg0.win 6).blk t).view.read (Elt Ideal) (sumG V c) := by
  have hN : cfg0.N = 25 := N_0
  have h24 : t.val = 24 := by have := (flush0_6 t).mp hf; have := t.isLt; omega
  obtain rfl : t = tLast := Fin.ext h24
  show (cfg0.win 6).cut (grid0.coords tLast) ((dat0 V c).after 6 tLast) = _
  rw [after0_6]
  exact (Memref.read_access_unit_zero (Elt Ideal) main_v22_1 off6 (fun a => by rw [congrFun off6 a]; omega) (sumG V c)).symm

theorem flushed7 (t : Fin cfg0.N) (hf : (cfg0.win 7).flush t = true) :
    (dat0 V c).flushed 7 t = ((cfg0.win 7).blk t).view.read (Elt Ideal) (sqG V c) := by
  have hN : cfg0.N = 25 := N_0
  have h24 : t.val = 24 := by have := (flush0_7 t).mp hf; have := t.isLt; omega
  obtain rfl : t = tLast := Fin.ext h24
  show (cfg0.win 7).cut (grid0.coords tLast) ((dat0 V c).after 7 tLast) = _
  rw [after0_7]
  exact (Memref.read_access_unit_zero (Elt Ideal) main_v22_2 off7 (fun a => by rw [congrFun off7 a]; omega) (sqG V c)).symm

/-- That block is the whole 1×256 array. -/
theorem cover6 (i : S1x256.Idx) : i ∈ ((cfg0.win 6).blk tLast).view.set := by
  show i ∈ ((View.whole main_v22_1).slice (win0_6.rect tLast)).set
  rw [View.set_slice_whole]
  exact View.mem_set_unit_zero (S := S1x256) off6 _ i
theorem cover7 (i : S1x256.Idx) : i ∈ ((cfg0.win 7).blk tLast).view.set := by
  show i ∈ ((View.whole main_v22_2).slice (win0_7.rect tLast)).set
  rw [View.set_slice_whole]
  exact View.mem_set_unit_zero (S := S1x256) off7 _ i

theorem final6 : (dat0 V c).arrAt 6 cfg0.N = sumG V c :=
  (dat0 V c).arrAt_eq_of_cover 6 (sumG V c) (flushed6 V c) fun i => ⟨tLast, (flush0_6 tLast).mpr rfl, cover6 i⟩
theorem final7 : (dat0 V c).arrAt 7 cfg0.N = sqG V c :=
  (dat0 V c).arrAt_eq_of_cover 7 (sqG V c) (flushed7 V c) fun i => ⟨tLast, (flush0_7 tLast).mpr rfl, cover7 i⟩

/-- The pre-activation as contents of the 50000×256 array. -/
abbrev preG : S50000x256.Idx → EReal := fun i => o V c (i 0) (i 1)

/-- The pre-activation window sits at block (t, 0). -/
theorem index0_5 : ∀ t : Fin grid0.N, win0_5.index t 0 = t.val ∧ win0_5.index t 1 = 0 := by decide +kernel

/-- Row `r` of block `t` of any contents of the pre-activation array is its row `2000·t + r`. -/
theorem blk5_read (G : S50000x256.Idx → EReal) (t : Fin cfg0.N) (r : Fin 2000) (q : Fin 256) (p : Fin 50000)
    (hp : p.val = 2000 * t.val + r.val) :
    (((cfg0.win 5).blk t).view.read (Elt Ideal) G : Vec Ideal S2000x256 .f32) (ix2 r q) = G (ix2 p q) := by
  have hi := index0_5 t
  rw [View.read_apply]
  show G _ = G _
  congr 1
  funext a
  apply Fin.ext
  match a with
  | ⟨0, _⟩ => show win0_5.index t 0 * 2000 + 1 * r.val = p.val; rw [hi.1, hp]; omega
  | ⟨1, _⟩ => show win0_5.index t 1 * 256 + 1 * q.val = q.val; rw [hi.2]; omega

/-- Every point writes back its block of the pre-activation. -/
theorem flushed5 (t : Fin cfg0.N) (hf : (cfg0.win 5).flush t = true) :
    (dat0 V c).flushed 5 t = ((cfg0.win 5).blk t).view.read (Elt Ideal) (preG V c) := by
  have hN : cfg0.N = 25 := N_0
  have ht := t.isLt
  show (cfg0.win 5).cut (grid0.coords t) ((dat0 V c).after 5 t) = _
  rw [after0_5]
  have e : (outsAt0 V c t.val t.isLt).1 = k0_pay4 (F := Ideal) (blkA V c t) (blkX V c t) (blkWr V c t) (blkWo V c t) (blkB V c t) := by
    by_cases h0 : t.val % 25 = 0
    · exact pre_A V c t h0
    · exact pre_B V c t h0
  show ((outsAt0 V c t.val t.isLt).1 : Vec Ideal S2000x256 .f32)
      = (((cfg0.win 5).blk t).view.read (Elt Ideal) (preG V c) : Vec Ideal S2000x256 .f32)
  rw [e]
  funext y
  obtain ⟨r, q, rfl⟩ : ∃ (r : Fin 2000) (q : Fin 256), y = ix2 r q := ⟨y 0, y 1, eq_ix2 y⟩
  exact (pre_at V c t r q ⟨2000 * t.val + r.val, by have := r.isLt; omega⟩ rfl).trans
    (blk5_read (preG V c) t r q ⟨2000 * t.val + r.val, by have := r.isLt; omega⟩ rfl).symm

/-- The 25 blocks of 2000 rows tile the array: row `i₀` is in block `i₀ / 2000`. -/
theorem cover5 (i : S50000x256.Idx) :
    ∃ t : Fin cfg0.N, (cfg0.win 5).flush t = true ∧ i ∈ ((cfg0.win 5).blk t).view.set := by
  have hN : cfg0.N = 25 := N_0
  have h0 : (i 0 : Nat) < 50000 := (i 0).isLt
  have h1 : (i 1 : Nat) < 256 := (i 1).isLt
  have hlt : (i 0 : Nat) / 2000 < cfg0.N := by omega
  refine ⟨⟨(i 0 : Nat) / 2000, hlt⟩, flush0_5 _, ?_⟩
  show i ∈ ((View.whole main_v22_0).slice (win0_5.rect ⟨(i 0 : Nat) / 2000, hlt⟩)).set
  rw [View.set_slice_whole, Rect.mem_set_unit]
  have hi := index0_5 ⟨(i 0 : Nat) / 2000, hlt⟩
  intro a
  match a with
  | ⟨0, _⟩ =>
    show win0_5.index ⟨(i 0 : Nat) / 2000, hlt⟩ 0 * 2000 ≤ (i 0 : Nat)
      ∧ (i 0 : Nat) < win0_5.index ⟨(i 0 : Nat) / 2000, hlt⟩ 0 * 2000 + 2000
    rw [hi.1]; dsimp only; omega
  | ⟨1, _⟩ =>
    show win0_5.index ⟨(i 0 : Nat) / 2000, hlt⟩ 1 * 256 ≤ (i 1 : Nat)
      ∧ (i 1 : Nat) < win0_5.index ⟨(i 0 : Nat) / 2000, hlt⟩ 1 * 256 + 256
    rw [hi.2]; omega

theorem final5 : (dat0 V c).arrAt 5 cfg0.N = preG V c :=
  (dat0 V c).arrAt_eq_of_cover 5 (preG V c) (flushed5 V c) (cover5)

theorem out_apply (p : Fin 50000) (q : Fin 256) :
    ((dat0 (F := Ideal) V c).arrAt 5 cfg0.N : S50000x256.Idx → EReal) (ix2 p q) = o V c p q := by
  rw [final5 V c]
theorem sum_apply (q : Fin 256) :
    ((dat0 (F := Ideal) V c).arrAt 6 cfg0.N : S1x256.Idx → EReal) (ix2 (0 : Fin 1) q) = ∑ p : Fin 50000, o V c p q := by
  rw [final6 V c]
  exact (sum_after V c 24 (tLast).isLt q).trans (sum_lt_all (fun p => o V c p q))
theorem sumsq_apply (q : Fin 256) :
    ((dat0 (F := Ideal) V c).arrAt 7 cfg0.N : S1x256.Idx → EReal) (ix2 (0 : Fin 1) q) = ∑ p : Fin 50000, o V c p q * o V c p q := by
  rw [final7 V c]
  exact (sq_after V c 24 (tLast).isLt q).trans (sum_lt_all (fun p => o V c p q * o V c p q))
end Cert.KernelIdeal.Reg0

end
-- ==== Proof.KReg1.lean ====
/- What the second kernel leaves in its output array, for any contents it finds at its entry: the normalisation, clipping and residual applied entry by entry. -/
import proofs.«174193_j481036337798_1_alg».proof.Proof.Gen.KernelIdeal.Frame
import proofs.«174193_j481036337798_1_alg».proof.Proof.Payload
import proofs.«174193_j481036337798_1_alg».proof.Proof.Spec
import Idealize.ShloMosaic.Lib.ValueIdx

noncomputable section

open Idealize.ShloMosaic Idealize.ShloMosaic.TcCoe Idealize.SL.Sem Idealize.ShloMosaic.ValueIdx

namespace Cert.KernelIdeal.Reg1
open Cert.KernelIdeal Cert.KernelIdeal.Gen Cert.GBlock
variable (V : (c : Dev nD) → (b : Ref sig .tc) → Buf (Elt Ideal) ((c : Thread nD τ).loc b)) (c : Dev nD)
abbrev oA : S50000x256.Idx → EReal := V c main_v22_0
abbrev muA : S1x256.Idx → EReal := V c main_v24
abbrev vaA : S1x256.Idx → EReal := V c main_v28
abbrev gA : S1x256.Idx → EReal := V c main_v20
abbrev beA : S1x256.Idx → EReal := V c main_v21
abbrev xA : S50000x256.Idx → EReal := V c main_arg0
/-- The two zero offsets of a whole-buffer access, as the constant function. -/
theorem zero_off : (![0, 0] : Fin 2 → Nat) = fun _ => 0 := funext fun a => by fin_cases a <;> rfl

/-- The place in a per-channel row vector that belongs to an entry's channel. -/
abbrev chan {n : Nat} (i : (⟨2, ![n, 256]⟩ : Shape).Idx) : S1x256.Idx := ix2 (0 : Fin 1) (⟨(i 1).val, idx2_lt1 i⟩ : Fin 256)

/-- The whole output array as ONE function of the arrays the region finds: entry i is normalised by its
    channel's mean and variance, scaled, shifted, clipped, given the node's own feature and clipped again. -/
abbrev whole : S50000x256.Idx → EReal := fun i =>
  max (max ((oA V c i - muA V c (chan i)) * Ideal.rsqrt (vaA V c (chan i) + eps) * gA V c (chan i) + beA V c (chan i)) 0
    + xA V c i) 0

/-- At coordinates (p, q) that function is the specification's. -/
theorem whole_ix2 (p : Fin 50000) (q : Fin 256) : whole V c (ix2 p q)
    = bn (fun p q => oA V c (ix2 p q)) (fun q => muA V c (ix2 (0 : Fin 1) q)) (fun q => vaA V c (ix2 (0 : Fin 1) q))
        (fun q => gA V c (ix2 (0 : Fin 1) q)) (fun q => beA V c (ix2 (0 : Fin 1) q)) (fun p q => xA V c (ix2 p q)) p q := rfl

/-- The stored value at an entry y of a block is the whole-array function at an entry i of the array, as soon as
    the loaded blocks hold, at y and at y's channel, what the arrays hold at i and at i's channel. -/
theorem stored_eq_whole (x0 x5 : Vec Ideal S5000x256 .f32) (x1 x2 x3 x4 : Vec Ideal S1x256 .f32)
    (y : S5000x256.Idx) (i : S50000x256.Idx)
    (h0 : x0 y = oA V c i) (h5 : x5 y = xA V c i)
    (h1 : ∀ z : S1x256.Idx, (z 1).val = (y 1).val → x1 z = muA V c (chan i))
    (h2 : ∀ z : S1x256.Idx, (z 1).val = (y 1).val → x2 z = vaA V c (chan i))
    (h3 : ∀ z : S1x256.Idx, (z 1).val = (y 1).val → x3 z = gA V c (chan i))
    (h4 : ∀ z : S1x256.Idx, (z 1).val = (y 1).val → x4 z = beA V c (chan i)) :
    k1_pay1 (F := Ideal) x0 x2 x1 x3 x4 x5 y = whole V c i := by
  obtain ⟨r, q, rfl⟩ : ∃ (r : Fin 5000) (q : Fin 256), y = ix2 r q := ⟨y 0, y 1, eq_ix2 y⟩
  rw [Payload.k1_pay1_apply, h0, h5, h1 (ix2 (0 : Fin 1) q) rfl, h2 (ix2 (0 : Fin 1) q) rfl,
    h3 (ix2 (0 : Fin 1) q) rfl, h4 (ix2 (0 : Fin 1) q) rfl]

/-- The block each window holds at grid point t, over the ten points: the three row-block windows are at block
    (t, 0), the four per-channel windows at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row r of the aggregated-feature window's block at point t is row 5000·t + r of its array. -/
theorem rows0_at (t : Fin cfg1.N) (y : S5000x256.Idx) (i : S50000x256.Idx)
    (h0 : (i 0).val = 5000 * t.val + (y 0).val) (h1 : (i 1).val = (y 1).val) :
    (iblk1 (F := Ideal) V c 0 t : Vec Ideal S5000x256 .f32) y = oA V c i := by
  obtain ⟨e00, e01, -⟩ := idx_facts t
  unfold iblk1
  rw [View.read_apply]
  show V c main_v22_0 _ = V c main_v22_0 _
  congr 1
  funext a
  apply Fin.ext
  match a with
  | ⟨0, _⟩ => show win1_0.index t (0 : Fin 2) * 5000 + 1 * (y 0).val = (i 0).val; rw [e00, h0]; omega
  | ⟨1, _⟩ => show win1_0.index t (1 : Fin 2) * 256 + 1 * (y 1).val = (i 1).val; rw [e01, h1]; omega

/-- The same for the node-feature window. -/
theorem rows5_at (t : Fin cfg1.N) (y : S5000x256.Idx) (i : S50000x256.Idx)
    (h0 : (i 0).val = 5000 * t.val + (y 0).val) (h1 : (i 1).val = (y 1).val) :
    (iblk1 (F := Ideal) V c 5 t : Vec Ideal S5000x256 .f32) y = xA V c i := by
  obtain ⟨-, -, -, -, -, -, -, -, -, -, e50, e51, -⟩ := idx_facts t
  unfold iblk1
  rw [View.read_apply]
  show V c main_arg0 _ = V c main_arg0 _
  congr 1
  funext a
  apply Fin.ext
  match a with
  | ⟨0, _⟩ => show win1_5.index t (0 : Fin 2) * 5000 + 1 * (y 0).val = (i 0).val; rw [e50, h0]; omega
  | ⟨1, _⟩ => show win1_5.index t (1 : Fin 2) * 256 + 1 * (y 1).val = (i 1).val; rw [e51, h1]; omega

/-- A per-channel window's block is its whole one-row array at every point: the mean, -/
theorem chan1_at (t : Fin cfg1.N) (z i : S1x256.Idx) (h : (i 1).val = (z 1).val) :
    (iblk1 (F := Ideal) V c 1 t : Vec Ideal S1x256 .f32) z = muA V c i := by
  obtain ⟨-, -, e0, e1, -⟩ := idx_facts t
  have hz := idx2_lt0 z
  have hi := idx2_lt0 i
  unfold iblk1
  rw [View.read_apply]
  show V c main_v24 _ = V c main_v24 _
  congr 1
  funext a
  apply Fin.ext
  match a with
  | ⟨0, _⟩ => show win1_1.index t (0 : Fin 2) * 1 + 1 * (z 0).val = (i 0).val; rw [e0]; omega
  | ⟨1, _⟩ => show win1_1.index t (1 : Fin 2) * 256 + 1 * (z 1).val = (i 1).val; rw [e1, h]; omega

/-- the variance, -/
theorem chan2_at (t : Fin cfg1.N) (z i : S1x256.Idx) (h : (i 1).val = (z 1).val) :
    (iblk1 (F := Ideal) V c 2 t : Vec Ideal S1x256 .f32) z = vaA V c i := by
  obtain ⟨-, -, -, -, e0, e1, -⟩ := idx_facts t
  have hz := idx2_lt0 z
  have hi := idx2_lt0 i
  unfold iblk1
  rw [View.read_apply]
  show V c main_v28 _ = V c main_v28 _
  congr 1
  funext a
  apply Fin.ext
  match a with
  | ⟨0, _⟩ => show win1_2.index t (0 : Fin 2) * 1 + 1 * (z 0).val = (i 0).val; rw [e0]; omega
  | ⟨1, _⟩ => show win1_2.index t (1 : Fin 2) * 256 + 1 * (z 1).val = (i 1).val; rw [e1, h]; omega

/-- the scale, -/
theorem chan3_at (t : Fin cfg1.N) (z i : S1x256.Idx) (h : (i 1).val = (z 1).val) :
    (iblk1 (F := Ideal) V c 3 t : Vec Ideal S1x256 .f32) z = gA V c i := by
  obtain ⟨-, -, -, -, -, -, e0, e1, -⟩ := idx_facts t
  have hz := idx2_lt0 z
  have hi := idx2_lt0 i
  unfold iblk1
  rw [View.read_apply]
  show V c main_v20 _ = V c main_v20 _
  congr 1
  funext a
  apply Fin.ext
  match a with
  | ⟨0, _⟩ => show win1_3.index t (0 : Fin 2) * 1 + 1 * (z 0).val = (i 0).val; rw [e0]; omega
  | ⟨1, _⟩ => show win1_3.index t (1 : Fin 2) * 256 + 1 * (z 1).val = (i 1).val; rw [e1, h]; omega

/-- and the shift. -/
theorem chan4_at (t : Fin cfg1.N) (z i : S1x256.Idx) (h : (i 1).val = (z 1).val) :
    (iblk1 (F := Ideal) V c 4 t : Vec Ideal S1x256 .f32) z = beA V c i := by
  obtain ⟨-, -, -, -, -, -, -, -, e0, e1, -⟩ := idx_facts t
  have hz := idx2_lt0 z
  have hi := idx2_lt0 i
  unfold iblk1
  rw [View.read_apply]
  show V c main_v21 _ = V c main_v21 _
  congr 1
  funext a
  apply Fin.ext
  match a with
  | ⟨0, _⟩ => show win1_4.index t (0 : Fin 2) * 1 + 1 * (z 0).val = (i 0).val; rw [e0]; omega
  | ⟨1, _⟩ => show win1_4.index t (1 : Fin 2) * 256 + 1 * (z 1).val = (i 1).val; rw [e1, h]; omega

/-- What point t writes back is block t of the whole-array function. -/
theorem flushed_eq (t : Fin cfg1.N) :
    (dat1 (F := Ideal) V c).flushed 6 t = ((cfg1.win 6).blk t).view.read (Elt Ideal) (whole V c) := by
  show (cfg1.win 6).cut (grid1.coords t) ((dat1 (F := Ideal) V c).after 6 t) = _
  rw [after1_6]
  unfold out1_6
  rw [View.canon_unit_zero zero_off]
  simp only [View.ld_unit_zero (S := S5000x256) zero_off, View.ld_unit_zero (S := S1x256) zero_off]
  obtain ⟨-, -, -, -, -, -, -, -, -, -, -, -, e60, e61⟩ := idx_facts t
  funext j
  have k0 : ((((cfg1.win 6).blk t).view.emb j : S50000x256.Idx) 0).val = 5000 * t.val + (j 0).val := by
    show win1_6.index t (0 : Fin 2) * 5000 + 1 * (j 0).val = _; rw [e60]; omega
  have k1 : ((((cfg1.win 6).blk t).view.emb j : S50000x256.Idx) 1).val = (j 1).val := by
    show win1_6.index t (1 : Fin 2) * 256 + 1 * (j 1).val = _; rw [e61]; omega
  show k1_pay1 (F := Ideal) (iblk1 V c 0 t) (iblk1 V c 2 t) (iblk1 V c 1 t) (iblk1 V c 3 t) (iblk1 V c 4 t) (iblk1 V c 5 t)
      ((win1 6).xinj (grid1.coords t) j) = whole V c (((cfg1.win 6).blk t).view.emb j)
  exact stored_eq_whole V c _ _ _ _ _ _ _ _ (rows0_at V c t _ _ k0 k1) (rows5_at V c t _ _ k0 k1)
    (fun z hz => chan1_at V c t z _ (k1.trans hz.symm)) (fun z hz => chan2_at V c t z _ (k1.trans hz.symm))
    (fun z hz => chan3_at V c t z _ (k1.trans hz.symm)) (fun z hz => chan4_at V c t z _ (k1.trans hz.symm))

/-- An entry of the array is in point t's block iff each coordinate is in the block's range on its axis. -/
theorem mem_blk (t : Fin cfg1.N) (i : S50000x256.Idx) :
    i ∈ ((cfg1.win 6).blk t).view.set ↔ ∀ a : Fin 2, win1_6.index t a * S5000x256.size a ≤ (i a).val
      ∧ (i a).val < win1_6.index t a * S5000x256.size a + S5000x256.size a := by
  show i ∈ ((View.whole main_v29).slice (win1_6.rect t)).set ↔ _
  rw [View.set_slice_whole, Rect.mem_set_unit]
  exact Iff.rfl

/-- Row p of the array lies in the block of point p / 5000, and every point writes back. -/
theorem covered (i : S50000x256.Idx) :
    ∃ t : Fin cfg1.N, (cfg1.win 6).flush t = true ∧ i ∈ ((cfg1.win 6).blk t).view.set := by
  have hi0 : (i 0).val < 50000 := idx2_lt0 i
  have hi1 : (i 1).val < 256 := idx2_lt1 i
  have hN : cfg1.N = 10 := N_1
  have ht : ∃ t : Fin cfg1.N, t.val = (i 0).val / 5000 := ⟨⟨(i 0).val / 5000, by rw [hN]; omega⟩, rfl⟩
  obtain ⟨t, ht⟩ := ht
  obtain ⟨-, -, -, -, -, -, -, -, -, -, -, -, e60, e61⟩ := idx_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    rw [e60, ht]; omega
  | ⟨1, _⟩ =>
    show win1_6.index t (1 : Fin 2) * 256 ≤ (i 1).val ∧ (i 1).val < win1_6.index t (1 : Fin 2) * 256 + 256
    rw [e61]; omega

/-- So the output array ends holding the whole-array function. -/
theorem final : (dat1 (F := Ideal) V c).arrAt 6 cfg1.N = whole V c :=
  (dat1 (F := Ideal) V c).arrAt_eq_of_cover 6 (whole V c) (fun t _ => flushed_eq V c t) covered

theorem out_apply (p : Fin 50000) (q : Fin 256) :
    ((dat1 (F := Ideal) V c).arrAt 6 cfg1.N : S50000x256.Idx → EReal) (ix2 p q)
      = bn (fun p q => oA V c (ix2 p q)) (fun q => muA V c (ix2 (0 : Fin 1) q)) (fun q => vaA V c (ix2 (0 : Fin 1) q))
          (fun q => gA V c (ix2 (0 : Fin 1) q)) (fun q => beA V c (ix2 (0 : Fin 1) q)) (fun p q => xA V c (ix2 p q)) p q :=
  (congrFun (final V c) (ix2 p q)).trans (whole_ix2 V c p q)

end Cert.KernelIdeal.Reg1

end
-- ==== Proof.KValue.lean ====
/-
  The kernel program's result array as a function of its arguments: the second kernel's output read through the
  host operations between the kernels (the mean and the variance formed from the first kernel's column sums)
  back to the first kernel's three output arrays, and those through the host operations before it back to the
  arguments. Entry (p, q) is the specification's `outK` of the aggregated messages, the node features, the two
  weight matrices, the bias, the scale and the shift.
-/
import proofs.«174193_j481036337798_1_alg».proof.Proof.Gen.KernelIdeal.Frame
import proofs.«174193_j481036337798_1_alg».proof.Proof.KHost
import proofs.«174193_j481036337798_1_alg».proof.Proof.KReg0
import proofs.«174193_j481036337798_1_alg».proof.Proof.KReg1
import proofs.«174193_j481036337798_1_alg».proof.Proof.KTerm
import proofs.«174193_j481036337798_1_alg».proof.Proof.Spec
import Idealize.ShloMosaic.Lib.ValueIdx

noncomputable section

open Idealize.ShloMosaic Idealize.ShloMosaic.TcCoe Idealize.SL.Sem Idealize.ShloMosaic.ValueIdx

namespace Cert.KernelIdeal.KValue

open Cert.KernelIdeal Cert.KernelIdeal.Gen Cert.GBlock

variable (m : (ℓ : Loc nD τ sig) → Buf (Elt Ideal) ℓ) (ρ : Dev nD → PrngReg) (c : Dev nD)

/-- The pre-activation of the program's arguments, in the kernel's order of additions. -/
def oK : Fin 50000 → Fin 256 → EReal :=
  preK (fun p k => (Term.agg (F := Ideal) (m ((c.tc : Thread nD τ).loc main_arg0)) (m ((c.tc : Thread nD τ).loc main_arg1)) (m ((c.tc : Thread nD τ).loc main_arg7)) : S50000x256.Idx → EReal) (ix2 p k))
      (fun p k => ((m ((c.tc : Thread nD τ).loc main_arg0)) : S50000x256.Idx → EReal) (ix2 p k))
      (fun q k => ((m ((c.tc : Thread nD τ).loc main_arg2)) : S256x256.Idx → EReal) (ix2 q k))
      (fun q k => ((m ((c.tc : Thread nD τ).loc main_arg4)) : S256x256.Idx → EReal) (ix2 q k))
      (fun q => ((m ((c.tc : Thread nD τ).loc main_arg3)) : S256.Idx → EReal) (ix1 q))

/-- The first kernel's pre-activation of the arrays it finds is the pre-activation of the arguments: the
    arrays it finds are the aggregated messages, the features, the two transposed weight matrices (entry
    (k, q) of a transpose is entry (q, k) of the matrix) and the bias as a row. -/
theorem o_eq : Reg0.o (Gen.V1 m ρ) c = oK m c := by
  funext p q
  unfold Reg0.o oK
  have hA : (fun (p : Fin 50000) (k : Fin 256) => Reg0.aggA (Gen.V1 m ρ) c (ix2 p k))
      = fun p k => (Term.agg (F := Ideal) (m ((c.tc : Thread nD τ).loc main_arg0)) (m ((c.tc : Thread nD τ).loc main_arg1)) (m ((c.tc : Thread nD τ).loc main_arg7)) : S50000x256.Idx → EReal) (ix2 p k) := by
    funext p k; exact congrFun (HostVal.V1_v16 m ρ c) (ix2 p k)
  have hX : (fun (p : Fin 50000) (k : Fin 256) => Reg0.xA (Gen.V1 m ρ) c (ix2 p k))
      = fun p k => ((m ((c.tc : Thread nD τ).loc main_arg0)) : S50000x256.Idx → EReal) (ix2 p k) := by
    funext p k; exact congrFun (HostVal.V1_arg0 m ρ c) (ix2 p k)
  have hWr : (fun (q k : Fin 256) => Reg0.wrA (Gen.V1 m ρ) c (ix2 k q))
      = fun q k => ((m ((c.tc : Thread nD τ).loc main_arg2)) : S256x256.Idx → EReal) (ix2 q k) := by
    funext q k; exact HostVal.V1_v17 m ρ c k q
  have hWo : (fun (q k : Fin 256) => Reg0.woA (Gen.V1 m ρ) c (ix2 k q))
      = fun q k => ((m ((c.tc : Thread nD τ).loc main_arg4)) : S256x256.Idx → EReal) (ix2 q k) := by
    funext q k; exact HostVal.V1_v18 m ρ c k q
  have hb : (fun (q : Fin 256) => Reg0.bA (Gen.V1 m ρ) c (ix2 (0 : Fin 1) q))
      = fun q => ((m ((c.tc : Thread nD τ).loc main_arg3)) : S256.Idx → EReal) (ix1 q) := by
    funext q; exact HostVal.V1_v19 m ρ c q
  rw [hA, hX, hWr, hWo, hb]

/-- The kernel program's result at (p, q). -/
theorem kernel_apply (p : Fin 50000) (q : Fin 256) :
    (Gen.W4 m ρ c (Proc.devRef .tc main_v29) : S50000x256.Idx → EReal) (ix2 p q)
      = outK (fun p k => (Term.agg (F := Ideal) (m ((c.tc : Thread nD τ).loc main_arg0)) (m ((c.tc : Thread nD τ).loc main_arg1)) (m ((c.tc : Thread nD τ).loc main_arg7)) : S50000x256.Idx → EReal) (ix2 p k))
      (fun p k => ((m ((c.tc : Thread nD τ).loc main_arg0)) : S50000x256.Idx → EReal) (ix2 p k))
      (fun q k => ((m ((c.tc : Thread nD τ).loc main_arg2)) : S256x256.Idx → EReal) (ix2 q k))
      (fun q k => ((m ((c.tc : Thread nD τ).loc main_arg4)) : S256x256.Idx → EReal) (ix2 q k))
      (fun q => ((m ((c.tc : Thread nD τ).loc main_arg3)) : S256.Idx → EReal) (ix1 q))
      (fun q => ((m ((c.tc : Thread nD τ).loc main_arg5)) : S256.Idx → EReal) (ix1 q))
      (fun q => ((m ((c.tc : Thread nD τ).loc main_arg6)) : S256.Idx → EReal) (ix1 q)) p q := by
  have h4 : (Gen.W4 m ρ c (Proc.devRef .tc main_v29) : S50000x256.Idx → EReal)
      = ((dat1 (F := Ideal) (Gen.V3 m ρ) c).arrAt 6 cfg1.N : S50000x256.Idx → EReal) := Gen.W4_arr m ρ c 6
  rw [h4, Reg1.out_apply (Gen.V3 m ρ) c p q]
  -- the six arrays the second kernel finds
  have ho : (fun (p : Fin 50000) (q : Fin 256) => Reg1.oA (Gen.V3 m ρ) c (ix2 p q)) = oK m c := by
    funext p q
    refine (congrFun (HostVal.V3_v22_0 m ρ c) (ix2 p q)).trans ?_
    rw [Reg0.out_apply (Gen.V1 m ρ) c p q, o_eq]
  have hmu : (fun (q : Fin 256) => Reg1.muA (Gen.V3 m ρ) c (ix2 (0 : Fin 1) q)) = mean (oK m c) := by
    funext q
    refine (HostVal.V3_v24 m ρ c q).trans ?_
    rw [Reg0.sum_apply (Gen.V1 m ρ) c q, o_eq]
    rfl
  have hva : (fun (q : Fin 256) => Reg1.vaA (Gen.V3 m ρ) c (ix2 (0 : Fin 1) q)) = varK (oK m c) := by
    funext q
    refine (HostVal.V3_v28 m ρ c q).trans ?_
    rw [Reg0.sumsq_apply (Gen.V1 m ρ) c q, Reg0.sum_apply (Gen.V1 m ρ) c q, o_eq]
    rfl
  have hg : (fun (q : Fin 256) => Reg1.gA (Gen.V3 m ρ) c (ix2 (0 : Fin 1) q))
      = fun q => ((m ((c.tc : Thread nD τ).loc main_arg5)) : S256.Idx → EReal) (ix1 q) := by
    funext q; exact HostVal.V3_v20 m ρ c q
  have hbe : (fun (q : Fin 256) => Reg1.beA (Gen.V3 m ρ) c (ix2 (0 : Fin 1) q))
      = fun q => ((m ((c.tc : Thread nD τ).loc main_arg6)) : S256.Idx → EReal) (ix1 q) := by
    funext q; exact HostVal.V3_v21 m ρ c q
  have hx : (fun (p : Fin 50000) (q : Fin 256) => Reg1.xA (Gen.V3 m ρ) c (ix2 p q))
      = fun p k => ((m ((c.tc : Thread nD τ).loc main_arg0)) : S50000x256.Idx → EReal) (ix2 p k) := by
    funext p q; exact congrFun (HostVal.V3_arg0 m ρ c) (ix2 p q)
  rw [ho, hmu, hva, hg, hbe, hx]
  rfl

end Cert.KernelIdeal.KValue

end
-- ==== Proof.RRun.lean ====
/-
  The reference program run from its launch: every fair execution ends, the result array holding the reference's
  composed term of the argument arrays and the arguments unchanged. The program is a straight line of host
  operations once its three local functions (the variance with its guarded select, and the two clippings) are laid
  out at their calls.
-/
import proofs.«174193_j481036337798_1_alg».proof.Proof.Gen.ReferenceIdeal
import proofs.«174193_j481036337798_1_alg».proof.Proof.RTerm
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The program's 79 operations in order, the local functions laid out where they are called: the first
    thirty-four are the aggregation over the edges, the two dense layers with the bias, the column means and the
    integer zero handed to the variance; then the variance's nineteen over the first call's arrays (column sums,
    their mean spread back over the rows, the squared deviations and their column sums, the divisor 50000 - 0 and the
    test that it is positive) and the guarded select's three over the nested call's arrays (the not-a-number
    constant at its own type, spread over the columns, chosen where the test fails); sixteen for the
    normalisation, scale and shift; a clipping at zero (the zero, spread over the array, the larger of the two);
    the node features added; the second clipping. -/
abbrev ops : List (HloOp τ sig (Elt F)) :=
  [ unary main_arg7 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg7 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_arg1 main_v11 (broadcastInDim S800000x1 ![0] bcast_S800000_S800000x1_0 : (⟨S800000, .f32⟩ : BufTy).Contents (Elt F) → (⟨S800000x1, .f32⟩ : BufTy).Contents (Elt F)),
    unary main_v11 main_v12 (broadcastInDim S800000x256 ![0, 1] bcast_S800000x1_S800000x256_0_1 : (⟨S800000x1, .f32⟩ : BufTy).Contents (Elt F) → (⟨S800000x256, .f32⟩ : BufTy).Contents (Elt F)),
    binary main_v10 main_v12 main_v13 (mulf : (⟨S800000x256, .f32⟩ : BufTy).Contents (Elt F) → (⟨S800000x256, .f32⟩ : BufTy).Contents (Elt F) → (⟨S800000x256, .f32⟩ : BufTy).Contents (Elt F)),
    nullary main_cst (constant S_ .f32 0x00000000#32),
    unary main_cst main_v14 (broadcastInDim S50000x256 ![] bcast_S_S50000x256 : (⟨S_, .f32⟩ : BufTy).Contents (Elt F) → (⟨S50000x256, .f32⟩ : BufTy).Contents (Elt F)),
    unary main_v3 main_v15 (broadcastInDim S800000x1 ![0] bcast_S800000_S800000x1_0 : (⟨S800000, .i32⟩ : BufTy).Contents (Elt F) → (⟨S800000x1, .i32⟩ : BufTy).Contents (Elt F)),
    ternary main_v14 main_v15 main_v13 main_v16 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_arg2 main_v17 ((transpose S256x256 [1, 0] · transposes_S256x256_S256x256_1_0) : (⟨S256x256, .f32⟩ : BufTy).Contents (Elt F) → (⟨S256x256, .f32⟩ : BufTy).Contents (Elt F)),
    binary main_v16 main_v17 main_v18 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg3 main_v19 (broadcastInDim S1x256 ![1] bcast_S256_S1x256_1 : (⟨S256, .f32⟩ : BufTy).Contents (Elt F) → (⟨S1x256, .f32⟩ : BufTy).Contents (Elt F)),
    unary main_v19 main_v20 (broadcastInDim S50000x256 ![0, 1] bcast_S1x256_S50000x256_0_1 : (⟨S1x256, .f32⟩ : BufTy).Contents (Elt F) → (⟨S50000x256, .f32⟩ : BufTy).Contents (Elt F)),
    binary main_v18 main_v20 main_v21 (addf : (⟨S50000x256, .f32⟩ : BufTy).Contents (Elt F) → (⟨S50000x256, .f32⟩ : BufTy).Contents (Elt F) → (⟨S50000x256, .f32⟩ : BufTy).Contents (Elt F)),
    unary main_arg4 main_v22 ((transpose S256x256 [1, 0] · transposes_S256x256_S256x256_1_0) : (⟨S256x256, .f32⟩ : BufTy).Contents (Elt F) → (⟨S256x256, .f32⟩ : BufTy).Contents (Elt F)),
    binary main_arg0 main_v22 main_v23 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v21 main_v23 main_v24 (addf : (⟨S50000x256, .f32⟩ : BufTy).Contents (Elt F) → (⟨S50000x256, .f32⟩ : BufTy).Contents (Elt F) → (⟨S50000x256, .f32⟩ : BufTy).Contents (Elt F)),
    nullary main_cst_1 (constant S_ .f32 0x00000000#32),
    binary main_v24 main_cst_1 main_v25 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_2 (constant S_ .f32 0x47435000#32),
    unary main_cst_2 main_v26 (broadcastInDim S256 ![] bcast_S_S256 : (⟨S_, .f32⟩ : BufTy).Contents (Elt F) → (⟨S256, .f32⟩ : BufTy).Contents (Elt F)),
    binary main_v25 main_v26 main_v27 (Host.divf : (⟨S256, .f32⟩ : BufTy).Contents (Elt F) → (⟨S256, .f32⟩ : BufTy).Contents (Elt F) → (⟨S256, .f32⟩ : BufTy).Contents (Elt F)),
    nullary main_c_3 (constantI S_ 32 0#32),
    TRef.nullary main_call0.cst (constant S_ .f32 0x00000000#32),
    TRef.binary (.of main_v24 : TRef sig ⟨S50000x256, .f32⟩) main_call0.cst main_call0.v0 (fun x v => Host.reduceAdd x v reducesTo_S50000x256_S256_d0 h_S_),
    TRef.unary main_call0.v0 main_call0.v1 (broadcastInDim S1x256 ![1] bcast_S256_S1x256_1),
    TRef.nullary main_call0.cst_0 (constant S_ .f32 0x47435000#32),
    TRef.unary main_call0.cst_0 main_call0.v2 (broadcastInDim S1x256 ![] bcast_S_S1x256),
    TRef.binary main_call0.v1 main_call0.v2 main_call0.v3 Host.divf,
    TRef.unary main_call0.v3 main_call0.v4 (broadcastInDim S50000x256 ![0, 1] bcast_S1x256_S50000x256_0_1),
    TRef.binary (.of main_v24 : TRef sig ⟨S50000x256, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x256_S256_d0 h_S_),
    TRef.unary main_call0.v8 main_call0.v10 (broadcastInDim S256 ![] bcast_S_S256),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S256 ![] bcast_S_S256),
    TRef.ternary main_call0.v12 main_call0.v11 main_call0.call0.v1 main_call0.call0.v2 (fun p a b => select (broadcastInDim S256 ![] bcast_S_S256 p) a b),
    unary main_v27 main_v29 (broadcastInDim S1x256 ![1] bcast_S256_S1x256_1 : (⟨S256, .f32⟩ : BufTy).Contents (Elt F) → (⟨S1x256, .f32⟩ : BufTy).Contents (Elt F)),
    unary main_v29 main_v30 (broadcastInDim S50000x256 ![0, 1] bcast_S1x256_S50000x256_0_1 : (⟨S1x256, .f32⟩ : BufTy).Contents (Elt F) → (⟨S50000x256, .f32⟩ : BufTy).Contents (Elt F)),
    binary main_v24 main_v30 main_v31 (subf : (⟨S50000x256, .f32⟩ : BufTy).Contents (Elt F) → (⟨S50000x256, .f32⟩ : BufTy).Contents (Elt F) → (⟨S50000x256, .f32⟩ : BufTy).Contents (Elt F)),
    nullary main_cst_4 (constant S_ .f32 0x3727C5AC#32),
    unary main_cst_4 main_v32 (broadcastInDim S256 ![] bcast_S_S256 : (⟨S_, .f32⟩ : BufTy).Contents (Elt F) → (⟨S256, .f32⟩ : BufTy).Contents (Elt F)),
    binary main_v28 main_v32 main_v33 (addf : (⟨S256, .f32⟩ : BufTy).Contents (Elt F) → (⟨S256, .f32⟩ : BufTy).Contents (Elt F) → (⟨S256, .f32⟩ : BufTy).Contents (Elt F)),
    unary main_v33 main_v34 (Host.rsqrt : (⟨S256, .f32⟩ : BufTy).Contents (Elt F) → (⟨S256, .f32⟩ : BufTy).Contents (Elt F)),
    unary main_v34 main_v35 (broadcastInDim S1x256 ![1] bcast_S256_S1x256_1 : (⟨S256, .f32⟩ : BufTy).Contents (Elt F) → (⟨S1x256, .f32⟩ : BufTy).Contents (Elt F)),
    unary main_v35 main_v36 (broadcastInDim S50000x256 ![0, 1] bcast_S1x256_S50000x256_0_1 : (⟨S1x256, .f32⟩ : BufTy).Contents (Elt F) → (⟨S50000x256, .f32⟩ : BufTy).Contents (Elt F)),
    binary main_v31 main_v36 main_v37 (mulf : (⟨S50000x256, .f32⟩ : BufTy).Contents (Elt F) → (⟨S50000x256, .f32⟩ : BufTy).Contents (Elt F) → (⟨S50000x256, .f32⟩ : BufTy).Contents (Elt F)),
    unary main_arg5 main_v38 (broadcastInDim S1x256 ![1] bcast_S256_S1x256_1 : (⟨S256, .f32⟩ : BufTy).Contents (Elt F) → (⟨S1x256, .f32⟩ : BufTy).Contents (Elt F)),
    unary main_v38 main_v39 (broadcastInDim S50000x256 ![0, 1] bcast_S1x256_S50000x256_0_1 : (⟨S1x256, .f32⟩ : BufTy).Contents (Elt F) → (⟨S50000x256, .f32⟩ : BufTy).Contents (Elt F)),
    binary main_v37 main_v39 main_v40 (mulf : (⟨S50000x256, .f32⟩ : BufTy).Contents (Elt F) → (⟨S50000x256, .f32⟩ : BufTy).Contents (Elt F) → (⟨S50000x256, .f32⟩ : BufTy).Contents (Elt F)),
    unary main_arg6 main_v41 (broadcastInDim S1x256 ![1] bcast_S256_S1x256_1 : (⟨S256, .f32⟩ : BufTy).Contents (Elt F) → (⟨S1x256, .f32⟩ : BufTy).Contents (Elt F)),
    unary main_v41 main_v42 (broadcastInDim S50000x256 ![0, 1] bcast_S1x256_S50000x256_0_1 : (⟨S1x256, .f32⟩ : BufTy).Contents (Elt F) → (⟨S50000x256, .f32⟩ : BufTy).Contents (Elt F)),
    binary main_v40 main_v42 main_v43 (addf : (⟨S50000x256, .f32⟩ : BufTy).Contents (Elt F) → (⟨S50000x256, .f32⟩ : BufTy).Contents (Elt F) → (⟨S50000x256, .f32⟩ : BufTy).Contents (Elt F)),
    TRef.nullary main_call1.cst (constant S_ .f32 0x00000000#32),
    TRef.unary main_call1.cst main_call1.v0 (broadcastInDim S50000x256 ![] bcast_S_S50000x256),
    TRef.binary (.of main_v43 : TRef sig ⟨S50000x256, .f32⟩) main_call1.v0 main_call1.v1 maximumf,
    binary main_v44 main_arg0 main_v45 (addf : (⟨S50000x256, .f32⟩ : BufTy).Contents (Elt F) → (⟨S50000x256, .f32⟩ : BufTy).Contents (Elt F) → (⟨S50000x256, .f32⟩ : BufTy).Contents (Elt F)),
    TRef.nullary main_call2.cst (constant S_ .f32 0x00000000#32),
    TRef.unary main_call2.cst main_call2.v0 (broadcastInDim S50000x256 ![] bcast_S_S50000x256),
    TRef.binary (.of main_v45 : TRef sig ⟨S50000x256, .f32⟩) main_call2.v0 main_call2.v1 maximumf ]

-- the chain is seventy-nine steps deep
set_option maxRecDepth 8192 in
/-- The program is that straight line. Sequencing grafts what follows onto the leaves of what comes first, by
    recursion on the first program; each function's body is a chain of steps, so at each call the graft computes and
    both sides are the same chain, the records' fields read at literal records. -/
theorem main_eq (c : Dev nD) : main (F := F) c = seq ops := rfl

attribute [local irreducible] Host.gather in
set_option maxRecDepth 8192 in
set_option maxHeartbeats 400000 in
/-- What the fold of the operations leaves in the result array is the composed term of the eight argument arrays:
    the fold is unrolled, each operation either writes the array read or leaves it, and the typed references'
    transports are the identity at literal references, so both sides are one term. The gather stays closed, and the scatter-add, the contractions and the
    column sums are the float values' own: the equation never looks inside them. -/
theorem out_eq (V : Valuation τ sig (Elt F)) :
    after ops V (main_v46 : DevRef τ sig)
      = Term.refOut (F := F) (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  simp only [after_cons, after_nil]
  rfl

/-- No operation writes argument 0's array. -/
theorem arg0_eq (V : Valuation τ sig (Elt F)) :
    after ops V (main_arg0 : DevRef τ sig) = V (main_arg0 : DevRef τ sig) := by
  simp only [after_cons, after_nil]
  rfl

/-- No operation writes argument 1's array. -/
theorem arg1_eq (V : Valuation τ sig (Elt F)) :
    after ops V (main_arg1 : DevRef τ sig) = V (main_arg1 : DevRef τ sig) := by
  simp only [after_cons, after_nil]
  rfl

/-- No operation writes argument 2's array. -/
theorem arg2_eq (V : Valuation τ sig (Elt F)) :
    after ops V (main_arg2 : DevRef τ sig) = V (main_arg2 : DevRef τ sig) := by
  simp only [after_cons, after_nil]
  rfl

/-- No operation writes argument 3's array. -/
theorem arg3_eq (V : Valuation τ sig (Elt F)) :
    after ops V (main_arg3 : DevRef τ sig) = V (main_arg3 : DevRef τ sig) := by
  simp only [after_cons, after_nil]
  rfl

/-- No operation writes argument 4's array. -/
theorem arg4_eq (V : Valuation τ sig (Elt F)) :
    after ops V (main_arg4 : DevRef τ sig) = V (main_arg4 : DevRef τ sig) := by
  simp only [after_cons, after_nil]
  rfl

/-- No operation writes argument 5's array. -/
theorem arg5_eq (V : Valuation τ sig (Elt F)) :
    after ops V (main_arg5 : DevRef τ sig) = V (main_arg5 : DevRef τ sig) := by
  simp only [after_cons, after_nil]
  rfl

/-- No operation writes argument 6's array. -/
theorem arg6_eq (V : Valuation τ sig (Elt F)) :
    after ops V (main_arg6 : DevRef τ sig) = V (main_arg6 : DevRef τ sig) := by
  simp only [after_cons, after_nil]
  rfl

/-- No operation writes argument 7's array. -/
theorem arg7_eq (V : Valuation τ sig (Elt F)) :
    after ops V (main_arg7 : DevRef τ sig) = V (main_arg7 : DevRef τ sig) := by
  simp only [after_cons, after_nil]
  rfl

/-- No operation writes argument 8's array. -/
theorem arg8_eq (V : Valuation τ sig (Elt F)) :
    after ops V (main_arg8 : DevRef τ sig) = V (main_arg8 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches only arrays of the device. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., binary_bufs_sub .., unary_bufs_sub .., unary_bufs_sub ..,
    binary_bufs_sub .., unary_bufs_sub .., binary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., nullary_bufs_sub .., unary_bufs_sub ..,
    binary_bufs_sub ..⟩

/-- On every device, for any float values, from any memory with zero counters: every weakly fair execution of
    the program terminates with the result array at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = Term.refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v46).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

end Cert.ReferenceIdeal.Run

end
-- ==== Proof.RValue.lean ====
/-
  The reference's composed term read entry by entry: at node p and channel q it is the normalised, clipped and
  residual-added pre-activation of the specification, with the variance as the mean of squared deviations.
-/
import proofs.«174193_j481036337798_1_alg».proof.Proof.Gen.ReferenceIdeal
import proofs.«174193_j481036337798_1_alg».proof.Proof.RTerm
import proofs.«174193_j481036337798_1_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

open Idealize.ShloMosaic Idealize.ShloMosaic.ValueIdx

namespace Cert.ReferenceIdeal.Value

open Cert.ReferenceIdeal Cert.ReferenceIdeal.Gen Cert.GBlock

/-! ## The node count -/

/-- The node count, the real 50000, is above zero. -/
theorem c50000_pos : (0 : EReal) < c50000 := by
  rw [c50000_eq]; exact EReal.coe_pos.mpr (by norm_num)

/-! ## Indices -/

/-- The three spellings of an index of a matrix, of a one-row matrix and of a vector name the same coordinates. -/
theorem ij_eq_ix2 {n m : ℕ} (p : Fin n) (q : Fin m) : StableHlo.Predicate.ij p q = ix2 p q := by
  funext a
  match a with
  | ⟨0, _⟩ => rfl
  | ⟨1, _⟩ => rfl

theorem i1q_eq_ix2 {m : ℕ} (q : Fin m) : StableHlo.Predicate.i1q q = ix2 (0 : Fin 1) q := by
  funext a
  match a with
  | ⟨0, _⟩ => rfl
  | ⟨1, _⟩ => rfl

theorem ofFin_eq_ix1 {n : ℕ} (p : Fin n) : (Shape.Idx.ofFin p : (⟨1, ![n]⟩ : Shape).Idx) = ix1 p := by
  funext a
  match a with
  | ⟨0, _⟩ => rfl

/-! ## Broadcasts read at an index -/

/-- A scalar spread over any shape reads the scalar everywhere. -/
theorem bcastScalar_apply {α : Type} {t : Shape} (h : S_.BroadcastsInDim t (![] : Fin 0 → Fin t.rank)) (v : S_.Idx → α) (j : t.Idx) :
    broadcastInDim t ![] h v j = v ix0 := by
  have h0 : 0 < S_.numel := by decide
  rw [StableHlo.Predicate.bcast_scalar h h0 v j]
  exact congrArg v (eq_ix0 _)

/-- A [1, 256] row repeated down 50000 rows reads, at (p, q), the row at (0, q). -/
theorem bcastRow_apply {α : Type} (h₂ : S1x256.BroadcastsInDim S50000x256 (![0, 1] : Fin 2 → Fin S50000x256.rank))
    (v : S1x256.Idx → α) (p : Fin 50000) (q : Fin 256) :
    broadcastInDim S50000x256 ![0, 1] h₂ v (ix2 p q) = v (ix2 (0 : Fin 1) q) := by
  rw [← ij_eq_ix2 p q, ← i1q_eq_ix2 q]
  exact StableHlo.Predicate.bcast_of_row h₂ v p q

/-- A length-256 vector viewed as a [1, 256] row reads, at (0, q), the vector at q. -/
theorem bcastRow1_apply {α : Type} (h₁ : S256.BroadcastsInDim S1x256 (![1] : Fin 1 → Fin S1x256.rank))
    (v : S256.Idx → α) (q : Fin 256) :
    broadcastInDim S1x256 ![1] h₁ v (ix2 (0 : Fin 1) q) = v (ix1 q) := by
  rw [← i1q_eq_ix2 q, ← ofFin_eq_ix1 q]
  exact StableHlo.Predicate.bcast_row1 h₁ v q

/-! ## The transposed weight -/

/-- Entry (k, q) of the transpose is entry (q, k). -/
theorem transpose_sq_apply {α : Type} (w : S256x256.Idx → α) (h : S256x256.Transposes [1, 0] S256x256) (k q : Fin 256) :
    transpose S256x256 [1, 0] w h (ix2 k q) = w (ix2 q k) := by
  refine transpose_apply [1, 0] w h (ix2 k q) (ix2 q k) fun b => ?_
  match b with
  | ⟨0, _⟩ => rfl
  | ⟨1, _⟩ => rfl

/-! ## The matrix product -/

/-- With coordinate k on the one contracted axis, the product at (p, q) reads the left operand at (p, k) … -/
theorem dot_lhsIdx (p : Fin 50000) (q k : Fin 256) :
    dot_S50000x256_S256x256_S50000x256_1_0_0_1_n_n.lhsIdx (ix2 p q)
      ((contrEquiv1 dot_S50000x256_S256x256_S50000x256_1_0_0_1_n_n 256 rfl rfl).symm k) = ix2 p k := by
  funext a
  apply Fin.ext
  match a with
  | ⟨0, _⟩ => rfl
  | ⟨1, _⟩ => exact contrEquiv1_symm_val dot_S50000x256_S256x256_S50000x256_1_0_0_1_n_n 256 rfl rfl k

/-- … and the right operand at (k, q). -/
theorem dot_rhsIdx (p : Fin 50000) (q k : Fin 256) :
    dot_S50000x256_S256x256_S50000x256_1_0_0_1_n_n.rhsIdx (ix2 p q)
      ((contrEquiv1 dot_S50000x256_S256x256_S50000x256_1_0_0_1_n_n 256 rfl rfl).symm k) = ix2 k q := by
  funext a
  apply Fin.ext
  match a with
  | ⟨0, _⟩ => exact contrEquiv1_symm_val dot_S50000x256_S256x256_S50000x256_1_0_0_1_n_n 256 rfl rfl k
  | ⟨1, _⟩ => rfl

/-- The host's product of a [50000, 256] by a [256, 256] matrix at (p, q): the sum over the shared axis. -/
theorem dot_apply (l : FVec Ideal S50000x256 .f32) (r : FVec Ideal S256x256 .f32) (p : Fin 50000) (q : Fin 256) :
    Host.dotGeneral dot_S50000x256_S256x256_S50000x256_1_0_0_1_n_n none l r (ix2 p q)
      = ∑ k : Fin 256, l (ix2 p k) * r (ix2 k q) := by
  refine (Ideal.dotGeneral_apply dot_S50000x256_S256x256_S50000x256_1_0_0_1_n_n none .single l r (ix2 p q)).trans ?_
  rw [← Equiv.sum_comp (contrEquiv1 dot_S50000x256_S256x256_S50000x256_1_0_0_1_n_n 256 rfl rfl).symm]
  refine Finset.sum_congr rfl fun k _ => ?_
  rw [dot_lhsIdx, dot_rhsIdx]

/-! ## The column sum -/

/-- Column q of a [50000, 256] array with row k put back is (k, q). -/
theorem lift_col (h : S50000x256.Reduces [0] S256) (q : Fin 256) (k : Fin (S50000x256.size 0)) :
    h.lift (ix1 q) k = ix2 (⟨k.val, k.isLt⟩ : Fin 50000) q := by
  funext c
  apply Fin.ext
  match c with
  | ⟨0, _⟩ => rfl
  | ⟨1, _⟩ => rfl

/-- The host's sum down the rows from the zero word, at column q: the sum of the column. -/
theorem colsum_apply (o : FVec Ideal S50000x256 .f32) (h' : S50000x256.ReducesTo [0] S256) (hu : 0 < S_.numel) (q : Fin 256) :
    Host.reduceAdd o (constant (F := Ideal) S_ .f32 0x00000000#32) h' hu (ix1 q) = ∑ p : Fin 50000, o (ix2 p q) := by
  have h : S50000x256.Reduces [0] S256 := by decide
  refine (Ideal.hostReduceAdd_single h' h o _ (ix1 q)).trans ?_
  rw [show (constant (F := Ideal) S_ .f32 0x00000000#32) (Shape.Idx.first hu) = 0 from Ideal.ofBits_zero_f32, zero_add]
  exact Finset.sum_congr rfl fun k _ => congrArg o (lift_col h q k)

/-! ## Pointwise host operations -/

theorem hostDivf_apply {s : Shape} {φ : FTy} (a b : FVec Ideal s φ) (i : s.Idx) : Host.divf a b i = Ideal.div (a i) (b i) := rfl

theorem hostRsqrt_apply {s : Shape} {φ : FTy} (a : FVec Ideal s φ) (i : s.Idx) : Host.rsqrt a i = Ideal.rsqrt (a i) := rfl

/-! ## The pre-activation -/
/-- The pre-activation at (p, q): the aggregated row against row q of W_rel, plus the bias at q, plus the node's own
    row against row q of W_root (each transposed weight read back at its original entry). -/
theorem pre_apply (x : S50000x256.Idx → EReal) (ew : S800000.Idx → EReal) (wr : S256x256.Idx → EReal) (b : S256.Idx → EReal)
    (wo : S256x256.Idx → EReal) (ei : (⟨S2x800000, .i32⟩ : BufTy).Contents (Elt Ideal)) (p : Fin 50000) (q : Fin 256) :
    (Term.pre (F := Ideal) x ew wr b wo ei : S50000x256.Idx → EReal) (ix2 p q)
      = Cert.GBlock.pre (fun p k => (Term.agg (F := Ideal) x ew ei : S50000x256.Idx → EReal) (ix2 p k)) (fun p k => x (ix2 p k))
          (fun q k => wr (ix2 q k)) (fun q k => wo (ix2 q k)) (fun q => b (ix1 q)) p q := by
  unfold Term.pre Cert.GBlock.pre
  rw [addf_apply, addf_apply, dot_apply, dot_apply, bcastRow_apply, bcastRow1_apply]
  refine congrArg₂ (· + ·) (congrArg (· + b (ix1 q)) (Finset.sum_congr rfl fun k _ => ?_)) (Finset.sum_congr rfl fun k _ => ?_)
  · rw [transpose_sq_apply]
  · rw [transpose_sq_apply]

/-! ## The statistics -/

/-- The divisor of the variance, the node count less the integer zero, is the node count. -/
theorem den_eq :
    (subf (constant (F := Ideal) S_ .f32 0x47435000#32) (sitofp .f32 (constantI S_ 32 0#32 : IVec S_ 32)) : FVec Ideal S_ .f32) ix0
      = c50000 := by
  show c50000 - (((0#32 : BitVec 32).toInt : ℝ) : EReal) = c50000
  rw [show (0#32 : BitVec 32).toInt = 0 from rfl, Int.cast_zero, EReal.coe_zero, sub_zero]

/-- The node count is above zero, so the guard of the variance holds. -/
theorem guard_eq : Ideal.cmp .ogt c50000 (Ideal.ofBits .f32 0x00000000#32) = 1#1 := by
  rw [Ideal.ofBits_zero_f32]
  show BitVec.ofBool (decide ((0 : EReal) < c50000)) = 1#1
  rw [decide_eq_true c50000_pos]
  rfl

/-- The column mean at q: the column's sum over the node count. -/
theorem meanv_apply (o : S50000x256.Idx → EReal) (q : Fin 256) :
    (Term.meanv (F := Ideal) o : S256.Idx → EReal) (ix1 q) = mean (fun p k => o (ix2 p k)) q := by
  unfold Term.meanv Cert.GBlock.mean
  rw [hostDivf_apply, colsum_apply, bcastScalar_apply]
  rfl

/-- The column variance at q: the guard holds, so it is the sum of squared deviations from the column mean over the
    node count. -/
theorem varv_apply (o : S50000x256.Idx → EReal) (q : Fin 256) :
    (Term.varv (F := Ideal) o : S256.Idx → EReal) (ix1 q) = varR (fun p k => o (ix2 p k)) q := by
  unfold Term.varv
  rw [select_apply, bcastScalar_apply, cmpf_apply, den_eq, Ideal.cmpf_def, constant_apply, guard_eq, select_one, hostDivf_apply,
    bcastScalar_apply, den_eq, colsum_apply]
  unfold Cert.GBlock.varR
  refine congrArg (fun s => Ideal.div s c50000) (Finset.sum_congr rfl fun p _ => ?_)
  rw [mulf_apply, subf_apply, bcastRow_apply, hostDivf_apply, bcastRow1_apply, colsum_apply, bcastScalar_apply]
  rfl

/-! ## The result -/

theorem refOut_apply (x : S50000x256.Idx → EReal) (ew : S800000.Idx → EReal) (wr : S256x256.Idx → EReal) (b : S256.Idx → EReal)
    (wo : S256x256.Idx → EReal) (g β : S256.Idx → EReal) (ei : (⟨S2x800000, .i32⟩ : BufTy).Contents (Elt Ideal)) (p : Fin 50000) (q : Fin 256) :
    (Term.refOut (F := Ideal) x ew wr b wo g β ei : S50000x256.Idx → EReal) (ix2 p q)
      = outR (fun p k => (Term.agg (F := Ideal) x ew ei : S50000x256.Idx → EReal) (ix2 p k)) (fun p k => x (ix2 p k))
          (fun q k => wr (ix2 q k)) (fun q k => wo (ix2 q k)) (fun q => b (ix1 q)) (fun q => g (ix1 q)) (fun q => β (ix1 q)) p q := by
  have hpre : (fun p k => (Term.pre (F := Ideal) x ew wr b wo ei : S50000x256.Idx → EReal) (ix2 p k))
      = Cert.GBlock.pre (fun p k => (Term.agg (F := Ideal) x ew ei : S50000x256.Idx → EReal) (ix2 p k)) (fun p k => x (ix2 p k))
          (fun q k => wr (ix2 q k)) (fun q k => wo (ix2 q k)) (fun q => b (ix1 q)) :=
    funext fun p => funext fun k => pre_apply x ew wr b wo ei p k
  unfold Term.refOut
  rw [maximumf_apply, addf_apply, maximumf_apply, addf_apply, mulf_apply, mulf_apply, subf_apply,
    bcastRow_apply, bcastRow_apply, bcastRow_apply, bcastRow_apply,
    bcastRow1_apply, bcastRow1_apply, bcastRow1_apply, bcastRow1_apply,
    hostRsqrt_apply, addf_apply, bcastScalar_apply, bcastScalar_apply, constant_apply, constant_apply,
    meanv_apply, varv_apply, hpre, pre_apply, Ideal.ofBits_zero_f32]
  rfl

end Cert.ReferenceIdeal.Value

end
-- ==== Proof.Finite.lean ====
/-
  Finiteness: under the stated precondition every entry of the seven float arguments is a real number, and the
  aggregated messages are then real too (finite sums of products of reals on top of zero).
-/
import proofs.«174193_j481036337798_1_alg».proof.Proof.Gen.Pre_finite_inputs
import proofs.«174193_j481036337798_1_alg».proof.Proof.Gen.KernelIdeal
import proofs.«174193_j481036337798_1_alg».proof.Proof.KTerm
import proofs.«174193_j481036337798_1_alg».proof.Proof.Spec
import Idealize.ShloMosaic.Lib.ValueIdx
import Idealize.ShloMosaic.Lib.ReduceAll

noncomputable section

open Idealize.ShloMosaic Idealize.ShloMosaic.ValueIdx

namespace Cert.GBlock.Finite

open Cert.GBlock Cert.KernelIdeal

/-- The f32 word with all exponent bits set and no fraction bit denotes +∞. -/
theorem ofBits_inf : Ideal.ofBits .f32 0x7F800000#32 = (⊤ : EReal) := by
  simp [Ideal.ofBits, Ideal.ieee]

/-- |x| < +∞ leaves only the real numbers: at +∞ and at -∞ alike the larger of x and -x is +∞. -/
theorem isReal_of_abs_lt_top (x : EReal) (h : max x (-x) < ⊤) : IsReal x := by
  induction x using EReal.rec with
  | bot => simp at h
  | top => simp at h
  | coe r => exact ⟨r, rfl⟩

/-- One conjunct of the precondition, at any shape: if the conjunction over all entries of |x| < +∞ holds,
    every entry of x is real. -/
theorem real_of_all_lt_inf {s : Shape} {axes : List (Fin s.rank)} (x : s.Idx → EReal)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1) (j : (⟨0, ![]⟩ : Shape).Idx)
    (e : Host.reduce IntOp.andi (cmpf (F := Ideal) .olt (Host.absf (F := Ideal) (φ := .f32) x)
          (broadcastInDim s ![] hb (constant (F := Ideal) ⟨0, ![]⟩ .f32 0x7F800000#32))) init hr hu j = 1#1) :
    ∀ i, IsReal (x i) := by
  intro i
  -- the rank-0 shape has one index, so the conjunction ranges over every entry
  haveI : Subsingleton (⟨0, ![]⟩ : Shape).Idx := ⟨fun a b => funext fun d => d.elim0⟩
  have h1 := Host.reduce_andi_all _ init hr hu j e i
  -- the entry of the comparison at i is the test max (x i) (-(x i)) < +∞
  have h2 : Ideal.cmp .olt (max (x i) (-(x i))) (Ideal.ofBits .f32 0x7F800000#32) = 1#1 := h1
  rw [ofBits_inf] at h2
  have h3 : BitVec.ofBool (decide (max (x i) (-(x i)) < ⊤)) = 1#1 := h2
  refine isReal_of_abs_lt_top (x i) ?_
  by_contra hn
  rw [decide_eq_false hn] at h3
  exact absurd h3 (by decide)

/-- The precondition, all ones, makes every float argument real-valued. -/
theorem args_real (x : S50000x256.Idx → EReal) (ew : S800000.Idx → EReal) (wr : S256x256.Idx → EReal) (b : S256.Idx → EReal)
    (wo : S256x256.Idx → EReal) (g β : S256.Idx → EReal) (ei : IVec S2x800000 32) (bt : IVec S50000 32)
    (h : Cert.Pre_finite_inputs.fn (F := Ideal) x ew wr b wo g β ei bt = fun _ => 1#1) :
    (∀ i, IsReal (x i)) ∧ (∀ i, IsReal (ew i)) ∧ (∀ i, IsReal (wr i)) ∧ (∀ i, IsReal (b i)) ∧ (∀ i, IsReal (wo i))
      ∧ (∀ i, IsReal (g i)) ∧ (∀ i, IsReal (β i)) := by
  have h0 := congrFun h ValueIdx.ix0
  dsimp only [Cert.Pre_finite_inputs.fn, Cert.Pre_finite_inputs.fn_part1, andi] at h0
  -- the conjunction of the seven tests, split from the outside in
  obtain ⟨h6, hβ⟩ := IntOp.andi_eq_one.1 h0
  obtain ⟨h5, hg⟩ := IntOp.andi_eq_one.1 h6
  obtain ⟨h4, hwo⟩ := IntOp.andi_eq_one.1 h5
  obtain ⟨h3, hb⟩ := IntOp.andi_eq_one.1 h4
  obtain ⟨h2, hwr⟩ := IntOp.andi_eq_one.1 h3
  obtain ⟨hx, hew⟩ := IntOp.andi_eq_one.1 h2
  exact ⟨real_of_all_lt_inf x _ _ _ _ _ hx, real_of_all_lt_inf ew _ _ _ _ _ hew, real_of_all_lt_inf wr _ _ _ _ _ hwr,
    real_of_all_lt_inf b _ _ _ _ _ hb, real_of_all_lt_inf wo _ _ _ _ _ hwo, real_of_all_lt_inf g _ _ _ _ _ hg,
    real_of_all_lt_inf β _ _ _ _ _ hβ⟩

/-- An accumulating scatter of real updates into a real array is real: each entry is the array's own entry plus a
    finite sum of updates. -/
theorem scatterAdd_real {s si su : Shape} (d : ScatterDims s si su) {w : Nat} (z : s.Idx → EReal) (idx : IVec si w)
    (upd : su.Idx → EReal) (hz : ∀ i, IsReal (z i)) (hupd : ∀ j, IsReal (upd j)) :
    ∀ i, IsReal (Host.scatterAdd (F := Ideal) (φ := .f32) d z idx upd i) := by
  intro i
  unfold Host.scatterAdd
  rw [Ideal.hostScatterAdd_def]
  unfold Ideal.hostScatterAdd
  exact add_isReal (hz i) (sum_isReal _ _ (fun j _ => hupd j))

/-- The aggregated messages of real features and real weights are real. -/
theorem agg_real (x : S50000x256.Idx → EReal) (ew : S800000.Idx → EReal) (ei : (⟨S2x800000, .i32⟩ : BufTy).Contents (Elt Ideal))
    (hx : ∀ i, IsReal (x i)) (hew : ∀ i, IsReal (ew i)) :
    ∀ i, IsReal ((Term.agg (F := Ideal) x ew ei : S50000x256.Idx → EReal) i) := by
  intro i
  unfold Term.agg
  dsimp only
  refine scatterAdd_real _ _ _ _ ?_ ?_ i
  · -- the array scattered into is the zero splat
    intro k
    show IsReal (Ideal.ofBits .f32 0x00000000#32)
    rw [Ideal.ofBits_zero_f32]
    exact ⟨0, rfl⟩
  · -- an update is one gathered feature times one edge weight
    intro j
    show IsReal (x _ * ew _)
    exact mul_isReal (hx _) (hew _)

end Cert.GBlock.Finite

end
-- ==== Proof.lean ====
/-
  A graph block: messages aggregated over the edges, two dense layers, a normalisation of every channel by its
  mean and variance over all nodes, a clipping at zero, the residual, a second clipping. The kernel program
  and the reference perform the aggregation with the same host operations; the kernel then forms the
  pre-activation and its column sums and sums of squares in 25 row blocks, takes the variance as the mean of
  squares minus the squared mean, and normalises in 10 row blocks, while the reference adds the bias in another
  order and takes the variance as the mean of squared deviations. Over the extended reals the two orders of
  addition agree outright, and the two variances agree because under the precondition every entry involved is a
  real number: the arguments by the precondition itself, the aggregated messages as finite sums of products
  of reals. The three frames are the two generated ones and the reference's run with its result dropped; the
  kernel's idealization rewrote nothing.
-/
import proofs.«174193_j481036337798_1_alg».proof.Defs
import proofs.«174193_j481036337798_1_alg».proof.Proof.Gen.Kernel
import proofs.«174193_j481036337798_1_alg».proof.Proof.Gen.Kernel.Skeleton
import proofs.«174193_j481036337798_1_alg».proof.Proof.Gen.Kernel.Launch
import proofs.«174193_j481036337798_1_alg».proof.Proof.Gen.Kernel.Points
import proofs.«174193_j481036337798_1_alg».proof.Proof.Gen.Kernel.Frame
import proofs.«174193_j481036337798_1_alg».proof.Proof.Gen.KernelIdeal
import proofs.«174193_j481036337798_1_alg».proof.Proof.Gen.KernelIdeal.Skeleton
import proofs.«174193_j481036337798_1_alg».proof.Proof.Gen.KernelIdeal.Launch
import proofs.«174193_j481036337798_1_alg».proof.Proof.Gen.KernelIdeal.Points
import proofs.«174193_j481036337798_1_alg».proof.Proof.Gen.KernelIdeal.Frame
import proofs.«174193_j481036337798_1_alg».proof.Proof.Gen.ReferenceIdeal
import proofs.«174193_j481036337798_1_alg».proof.Proof.Gen.Pre_finite_inputs
import proofs.«174193_j481036337798_1_alg».proof.Proof.Spec
import proofs.«174193_j481036337798_1_alg».proof.Proof.KTerm
import proofs.«174193_j481036337798_1_alg».proof.Proof.RTerm
import proofs.«174193_j481036337798_1_alg».proof.Proof.KRun
import proofs.«174193_j481036337798_1_alg».proof.Proof.KValue
import proofs.«174193_j481036337798_1_alg».proof.Proof.RRun
import proofs.«174193_j481036337798_1_alg».proof.Proof.RValue
import proofs.«174193_j481036337798_1_alg».proof.Proof.Finite
import Idealize.ShloMosaic.Lib.ValueIdx
import Idealize.ShloMosaic.Adequacy
import Idealize.ShloMosaic.Init

noncomputable section

namespace Cert.Proof

open Idealize.ShloMosaic Idealize.ShloMosaic.TcCoe Idealize.SL.Sem Idealize.ShloMosaic.ValueIdx Cert.GBlock

/-- The aggregation is one function in both programs: the same operations over the same dimension records. -/
theorem agg_eq (x : Cert.KernelIdeal.S50000x256.Idx → EReal) (ew : Cert.KernelIdeal.S800000.Idx → EReal)
    (ei : (⟨Cert.KernelIdeal.S2x800000, .i32⟩ : BufTy).Contents (Elt Ideal)) :
    Cert.ReferenceIdeal.Term.agg (F := Ideal) x ew ei = Cert.KernelIdeal.Term.agg (F := Ideal) x ew ei := by
  unfold Cert.ReferenceIdeal.Term.agg Cert.KernelIdeal.Term.agg
  rfl

theorem frame_p : Cert.frame_Kernel := fun m ρ _ => Cert.Kernel.Gen.frame m ρ

theorem frame_pi : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Run.run (F := Ideal) m ρ)

/-- Both programs end with the same result array: entry (p, q) of the reference's is the specification's
    `outR`, of the kernel's `outK`, of the same seven real-valued arrays. -/
theorem algebraic : Cert.algebraic_KernelIdeal_ReferenceIdeal := by
  intro m ρ m' ρ' hpre hagree
  refine ⟨fun c => Cert.KernelIdeal.Gen.W4 m ρ c (Proc.devRef .tc Cert.KernelIdeal.main_v29),
    Cert.KernelIdeal.Run.run_main (F := Ideal) m ρ, ?_⟩
  refine (θ_run Cert.ReferenceIdeal.defs _ _).mono (fun _ h c => ⟨(h c).1.trans ?_, (h c).2⟩)
    (Cert.ReferenceIdeal.Run.run (F := Ideal) m' ρ')
  obtain ⟨h0, h1, h2, h3, h4, h5, h6, h7, -⟩ := hagree c
  rw [h0, h1, h2, h3, h4, h5, h6, h7]
  obtain ⟨hx, hew, hwr, hb, hwo, -, -⟩ := Cert.GBlock.Finite.args_real _ _ _ _ _ _ _ _ _ (hpre c)
  funext i
  obtain ⟨p, q, rfl⟩ : ∃ (p : Fin 50000) (q : Fin 256), i = ix2 p q := ⟨i 0, i 1, eq_ix2 i⟩
  refine (Cert.ReferenceIdeal.Value.refOut_apply _ _ _ _ _ _ _ _ p q).trans ?_
  refine Eq.trans ?_ (Cert.KernelIdeal.KValue.kernel_apply m ρ c p q).symm
  rw [agg_eq]
  refine (congrFun (congrFun (outK_eq_outR _ _ _ _ _ _ _ ?_ ?_ ?_ ?_ ?_) p) q).symm
  · exact fun p k => Cert.GBlock.Finite.agg_real _ _ _ hx hew _
  · exact fun p k => hx _
  · exact fun q k => hwr _
  · exact fun q k => hwo _
  · exact fun q => hb _

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
